-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096x4 : Shape := ⟨3, ![8, 4096, 4]⟩
abbrev S100x512 : Shape := ⟨2, ![100, 512]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4096x4 : S_.BroadcastsInDim S8x4096x4 (![] : Fin 0 → Fin S8x4096x4.rank)
  reducesTo_S8x4096x4_S_d0_1_2 : S8x4096x4.ReducesTo [0, 1, 2] S_
  bcast_S_S100x512 : S_.BroadcastsInDim S100x512 (![] : Fin 0 → Fin S100x512.rank)
  reducesTo_S100x512_S_d0_1 : S100x512.ReducesTo [0, 1] S_

variable [Facts]

def fn_part1 {F : FTy → Type} [FloatOps F] (main_v13 : IVec S_ 1) (main_v16 : IVec S100x512 1) : IVec S_ 1 :=
  let main_c_5 : IVec S_ 1 := constantI S_ 1 1#1
  let main_v17 : IVec S_ 1 := (fun x v => Host.reduce IntOp.andi x v reducesTo_S100x512_S_d0_1 h_S_) main_v16 main_c_5
  let main_v18 : IVec S_ 1 := andi main_v13 main_v17
  main_v18

def fn {F : FTy → Type} [FloatOps F] (main_arg0 : FVec F S8x4096x1024 .f32) (main_arg1 : FVec F S8x4096x4 .f32) (main_arg2 : FVec F S100x512 .f32) (main_arg3 : FVec F S100x512 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x4 .f32 := Host.absf main_arg1
  let main_cst_0 : FVec F S_ .f32 := constant S_ .f32 0x7F800000#32
  let main_v5 : FVec F S8x4096x4 .f32 := broadcastInDim S8x4096x4 ![] bcast_S_S8x4096x4 main_cst_0
  let main_v6 : IVec S8x4096x4 1 := cmpf .olt main_v4 main_v5
  let main_c_1 : IVec S_ 1 := constantI S_ 1 1#1
  let main_v7 : IVec S_ 1 := (fun x v => Host.reduce IntOp.andi x v reducesTo_S8x4096x4_S_d0_1_2 h_S_) main_v6 main_c_1
  let main_v8 : IVec S_ 1 := andi main_v3 main_v7
  let main_v9 : FVec F S100x512 .f32 := Host.absf main_arg2
  let main_cst_2 : FVec F S_ .f32 := constant S_ .f32 0x7F800000#32
  let main_v10 : FVec F S100x512 .f32 := broadcastInDim S100x512 ![] bcast_S_S100x512 main_cst_2
  let main_v11 : IVec S100x512 1 := cmpf .olt main_v9 main_v10
  let main_c_3 : IVec S_ 1 := constantI S_ 1 1#1
  let main_v12 : IVec S_ 1 := (fun x v => Host.reduce IntOp.andi x v reducesTo_S100x512_S_d0_1 h_S_) main_v11 main_c_3
  let main_v13 : IVec S_ 1 := andi main_v8 main_v12
  let main_v14 : FVec F S100x512 .f32 := Host.absf main_arg3
  let main_cst_4 : FVec F S_ .f32 := constant S_ .f32 0x7F800000#32
  let main_v15 : FVec F S100x512 .f32 := broadcastInDim S100x512 ![] bcast_S_S100x512 main_cst_4
  let main_v16 : IVec S100x512 1 := cmpf .olt main_v14 main_v15
  fn_part1 (F := F) main_v13 main_v16
-- ==== Kernel.lean ====
abbrev S8x4096x1024 : Shape := ⟨3, ![8, 4096, 1024]⟩
abbrev S8x4096x4 : Shape := ⟨3, ![8, 4096, 4]⟩
abbrev S100x512 : Shape := ⟨2, ![100, 512]⟩
abbrev S8x4096x1 : Shape := ⟨3, ![8, 4096, 1]⟩
abbrev S8x4096 : Shape := ⟨2, ![8, 4096]⟩
abbrev S_ : Shape := ⟨0, ![]⟩
abbrev S32768x1024 : Shape := ⟨2, ![32768, 1024]⟩
abbrev S32768x1 : Shape := ⟨2, ![32768, 1]⟩
abbrev S128x512 : Shape := ⟨2, ![128, 512]⟩
abbrev S1 : Shape := ⟨1, ![1]⟩
abbrev S512x1 : Shape := ⟨2, ![512, 1]⟩
abbrev S512x1024 : Shape := ⟨2, ![512, 1024]⟩
abbrev S1x128 : Shape := ⟨2, ![1, 128]⟩
abbrev S512x128 : Shape := ⟨2, ![512, 128]⟩
abbrev S512x512 : Shape := ⟨2, ![512, 512]⟩

abbrev nBuf : Space → Nat
  | .hbm => 59
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4, .f32⟩
  | .hbm, ⟨2, _⟩ => ⟨S100x512, .f32⟩
  | .hbm, ⟨3, _⟩ => ⟨S100x512, .f32⟩
  | .hbm, ⟨4, _⟩ => ⟨S8x4096x1, .f32⟩
  | .hbm, ⟨5, _⟩ => ⟨S8x4096, .f32⟩
  | .hbm, ⟨6, _⟩ => ⟨S8x4096x1, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S8x4096, .i32⟩
  | .hbm, ⟨16, _⟩ => ⟨S8x4096x1, .f32⟩
  | .hbm, ⟨17, _⟩ => ⟨S8x4096, .f32⟩
  | .hbm, ⟨18, _⟩ => ⟨S8x4096x1, .f32⟩
  | .hbm, ⟨19, _⟩ => ⟨S8x4096, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S8x4096, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S8x4096, .i32⟩
  | .hbm, ⟨32, _⟩ => ⟨S8x4096, .i32⟩
  | .hbm, ⟨33, _⟩ => ⟨S_, .i32⟩
  | .hbm, ⟨34, _⟩ => ⟨S8x4096, .i32⟩
  | .hbm, ⟨35, _⟩ => ⟨S8x4096, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S8x4096, .i32⟩
  | .hbm, ⟨40, _⟩ => ⟨S8x4096, .i32⟩
  | .hbm, ⟨41, _⟩ => ⟨S_, .i32⟩
  | .hbm, ⟨42, _⟩ => ⟨S8x4096, .i32⟩
  | .hbm, ⟨43, _⟩ => ⟨S8x4096, .i32⟩
  | .hbm, ⟨44, _⟩ => ⟨S32768x1024, .f32⟩
  | .hbm, ⟨45, _⟩ => ⟨S32768x1, .i32⟩
  | .hbm, ⟨46, _⟩ => ⟨S32768x1, .i32⟩
  | .hbm, ⟨47, _⟩ => ⟨S_, .f32⟩
  | .hbm, ⟨48, _⟩ => ⟨S128x512, .f32⟩
  | .hbm, ⟨49, _⟩ => ⟨S_, .i32⟩
  | .hbm, ⟨50, _⟩ => ⟨S1, .i32⟩
  | .hbm, ⟨51, _⟩ => ⟨S128x512, .f32⟩
  | .hbm, ⟨52, _⟩ => ⟨S_, .f32⟩
  | .hbm, ⟨53, _⟩ => ⟨S128x512, .f32⟩
  | .hbm, ⟨54, _⟩ => ⟨S_, .i32⟩
  | .hbm, ⟨55, _⟩ => ⟨S1, .i32⟩
  | .hbm, ⟨56, _⟩ => ⟨S128x512, .f32⟩
  | .hbm, ⟨57, _⟩ => ⟨S32768x1024, .f32⟩
  | .hbm, ⟨58, _⟩ => ⟨S8x4096x1024, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S512x1024, .f32⟩
  | .local _ .vmem, ⟨5, _⟩ => ⟨S512x1024, .f32⟩
  | .local _ .vmem, ⟨6, _⟩ => ⟨S128x512, .f32⟩
  | .local _ .vmem, ⟨7, _⟩ => ⟨S128x512, .f32⟩
  | .local _ .vmem, ⟨8, _⟩ => ⟨S512x1024, .f32⟩
  | .local _ .vmem, ⟨9, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_c_4 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_cst_8 : Ref sig .tc := ⟨.hbm, 52, rfl⟩
abbrev main_v28 : Ref sig .tc := ⟨.hbm, 53, rfl⟩
abbrev main_c_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_2 : S8x4096x4.Slices ![0, 0, 2] S8x4096x1
  bcast_S_S8x4096 : S_.BroadcastsInDim S8x4096 (![] : Fin 0 → Fin S8x4096.rank)
  slices_S8x4096x4_S8x4096x1_0_0_1 : S8x4096x4.Slices ![0, 0, 1] S8x4096x1
  slices_S8x4096x4_S8x4096x1_0_0_3 : S8x4096x4.Slices ![0, 0, 3] S8x4096x1
  shapeCasts_S8x4096x1024_S32768x1024 : S8x4096x1024.ShapeCasts S32768x1024
  shapeCasts_S8x4096_S32768x1 : S8x4096.ShapeCasts S32768x1
  bcast_S_S128x512 : S_.BroadcastsInDim S128x512 (![] : Fin 0 → Fin S128x512.rank)
  bcast_S_S1 : S_.BroadcastsInDim S1 (![] : Fin 0 → Fin S1.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x128_d1_w32 : S1x128.Iotas .tc 32 [1]
  broadcasts_S512x1_S512x128 : S512x1.Broadcasts S512x128
  broadcasts_S1x128_S512x128 : S1x128.Broadcasts S512x128
  natLt_1_32 : 1 < 32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  concatenates_S512x512_S512x512_S512x1024_d1 : Shape.Concatenates [S512x512, S512x512] S512x1024 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S32768x1024_S8x4096x1024 : S32768x1024.ShapeCasts S8x4096x1024
  scatter_S128x512_S1_S100x512_01_n_0_0_wf : ScatterDims.WF S128x512 S1 S100x512 [0, 1] [] [0] 0
  dot_S512x128_S128x512_S512x512_1_0_0_1_n_n_wf : DotDims.WF S512x128 S128x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S32768x1.size a
  hwx0_0 : ∀ i : grid0.Coords, EltTy.bits .i32 = 32 ∨ (Rect.block (s := S32768x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S32768x1024.size a
  hwx0_2 : ∀ i : grid0.Coords, EltTy.bits .f32 = 32 ∨ (Rect.block (s := S32768x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def scatter_S128x512_S1_S100x512_01_n_0_0 : ScatterDims S128x512 S1 S100x512 where
  updateWindowDims := [0, 1]
  insertedWindowDims := []
  scatterDimsToOperandDims := [0]
  indexVectorDim := 0
  wf := scatter_S128x512_S1_S100x512_01_n_0_0_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf

abbrev win0_0 : Pipeline.Window sig grid0 :=
  Pipeline.Window.ofSpec (Memref.whole main_v23) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096x4 : Shape := ⟨3, ![8, 4096, 4]⟩
abbrev S100x512 : Shape := ⟨2, ![100, 512]⟩
abbrev S8x4096x1 : Shape := ⟨3, ![8, 4096, 1]⟩
abbrev S8x4096 : Shape := ⟨2, ![8, 4096]⟩
abbrev S_ : Shape := ⟨0, ![]⟩
abbrev S8x4096x512 : Shape := ⟨3, ![8, 4096, 512]⟩

abbrev nBuf : Space → Nat
  | .hbm => 64
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x4, .f32⟩
  | .hbm, ⟨2, _⟩ => ⟨S100x512, .f32⟩
  | .hbm, ⟨3, _⟩ => ⟨S100x512, .f32⟩
  | .hbm, ⟨4, _⟩ => ⟨S8x4096x1, .f32⟩
  | .hbm, ⟨5, _⟩ => ⟨S8x4096, .f32⟩
  | .hbm, ⟨6, _⟩ => ⟨S8x4096x1, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S8x4096, .i32⟩
  | .hbm, ⟨16, _⟩ => ⟨S8x4096x1, .f32⟩
  | .hbm, ⟨17, _⟩ => ⟨S8x4096, .f32⟩
  | .hbm, ⟨18, _⟩ => ⟨S8x4096x1, .f32⟩
  | .hbm, ⟨19, _⟩ => ⟨S8x4096, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S8x4096, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S8x4096, .i32⟩
  | .hbm, ⟨32, _⟩ => ⟨S8x4096, .i32⟩
  | .hbm, ⟨33, _⟩ => ⟨S_, .i32⟩
  | .hbm, ⟨34, _⟩ => ⟨S8x4096, .i32⟩
  | .hbm, ⟨35, _⟩ => ⟨S8x4096, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S8x4096, .i32⟩
  | .hbm, ⟨40, _⟩ => ⟨S8x4096, .i32⟩
  | .hbm, ⟨41, _⟩ => ⟨S_, .i32⟩
  | .hbm, ⟨42, _⟩ => ⟨S8x4096, .i32⟩
  | .hbm, ⟨43, _⟩ => ⟨S8x4096, .i32⟩
  | .hbm, ⟨44, _⟩ => ⟨S_, .i32⟩
  | .hbm, ⟨45, _⟩ => ⟨S8x4096, .i32⟩
  | .hbm, ⟨46, _⟩ => ⟨S8x4096, .i1⟩
  | .hbm, ⟨47, _⟩ => ⟨S_, .i32⟩
  | .hbm, ⟨48, _⟩ => ⟨S8x4096, .i32⟩
  | .hbm, ⟨49, _⟩ => ⟨S8x4096, .i32⟩
  | .hbm, ⟨50, _⟩ => ⟨S8x4096, .i32⟩
  | .hbm, ⟨51, _⟩ => ⟨S8x4096x1, .i32⟩
  | .hbm, ⟨52, _⟩ => ⟨S8x4096x512, .f32⟩
  | .hbm, ⟨53, _⟩ => ⟨S_, .i32⟩
  | .hbm, ⟨54, _⟩ => ⟨S8x4096, .i32⟩
  | .hbm, ⟨55, _⟩ => ⟨S8x4096, .i1⟩
  | .hbm, ⟨56, _⟩ => ⟨S_, .i32⟩
  | .hbm, ⟨57, _⟩ => ⟨S8x4096, .i32⟩
  | .hbm, ⟨58, _⟩ => ⟨S8x4096, .i32⟩
  | .hbm, ⟨59, _⟩ => ⟨S8x4096, .i32⟩
  | .hbm, ⟨60, _⟩ => ⟨S8x4096x1, .i32⟩
  | .hbm, ⟨61, _⟩ => ⟨S8x4096x512, .f32⟩
  | .hbm, ⟨62, _⟩ => ⟨S8x4096x1024, .f32⟩
  | .hbm, ⟨63, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_c_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v20 : Ref sig .tc := ⟨.hbm, 35, rfl⟩
abbrev main_c_4 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_c_7 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_8 : Ref sig .tc := ⟨.hbm, 53, rfl⟩
abbrev main_v29 : Ref sig .tc := ⟨.hbm, 54, rfl⟩
abbrev main_v30 : Ref sig .tc := ⟨.hbm, 55, rfl⟩
abbrev main_c_9 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩

abbrev nD : Nat := 1
abbrev τ : Topo := Topo.v7x

variable {F : FTy → Type} [FloatOps F]

class Facts₀ : Prop where
  slices_S8x4096x4_S8x4096x1_0_0_0 : S8x4096x4.Slices ![0, 0, 0] S8x4096x1
  shapeCasts_S8x4096x1_S8x4096 : S8x4096x1.ShapeCasts S8x4096
  slices_S8x4096x4_S8x4096x1_0_0_2 : S8x4096x4.Slices ![0, 0, 2] S8x4096x1
  bcast_S_S8x4096 : S_.BroadcastsInDim S8x4096 (![] : Fin 0 → Fin S8x4096.rank)
  slices_S8x4096x4_S8x4096x1_0_0_1 : S8x4096x4.Slices ![0, 0, 1] S8x4096x1
  slices_S8x4096x4_S8x4096x1_0_0_3 : S8x4096x4.Slices ![0, 0, 3] S8x4096x1
  bcast_S8x4096_S8x4096x1_0_1 : S8x4096.BroadcastsInDim S8x4096x1 (![0, 1] : Fin 2 → Fin S8x4096x1.rank)
  concatenates_S8x4096x512_S8x4096x512_S8x4096x1024_d2 : Shape.Concatenates [S8x4096x512, S8x4096x512] S8x4096x1024 2
  gather_S100x512_S8x4096x1_S8x4096x512_2_0_n_n_0_2_1512_wf : GatherDims.WF S100x512 S8x4096x1 S8x4096x512 [2] [0] [] [0] [] 2 ![1, 512]

variable [Facts₀]

def gather_S100x512_S8x4096x1_S8x4096x512_2_0_n_n_0_2_1512 : GatherDims S100x512 S8x4096x1 S8x4096x512 where
  offsetDims := [2]
  collapsedSliceDims := [0]
  operandBatchingDims := []
  startIndicesBatchingDims := []
  startIndexMap := [0]
  indexVectorDim := 2
  sliceSizes := ![1, 512]
  wf := gather_S100x512_S8x4096x1_S8x4096x512_2_0_n_n_0_2_1512_wf

class Facts : Prop extends Facts₀ where

variable [Facts]
-- ==== Proof.OneHot.lean ====
/-
  Words and extended reals, with no program in sight.

  A 32-bit word clipped between the words 0 and 99 (signed maximum with 0, then signed minimum with 99) reads, as
  a signed integer, between 0 and 99.  Comparing such a word `w` for equality against the lane numbers
  `0, 1, …, 127`, widening the one-bit answers and converting them to extended reals gives a row that is 1 at lane
  `w` and 0 elsewhere; the sum over the lanes of that row times any column `t` is the single entry `t w`.  No
  finiteness is asked of `t`: on the extended reals `0 * x = 0` for every `x`, infinite ones included.

  Then the same on whole vectors: the matrix unit's product of that one-hot matrix (a column of 512 words compared
  against the 128 lane numbers) with a 128-row table, into a zero accumulator, has at `(r, j)` the table's entry in
  column `j` of the row word `r` names — a row gather done by a matrix product.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.StackMember

noncomputable section

open scoped BigOperators

namespace Cert.PosEnc

open Idealize.ShloMosaic

/-- The clip `min 99 (max 0 v)` on signed 32-bit words lands in `[0, 99]`. -/
theorem clip_toInt (v : BitVec 32) :
    0 ≤ (IntOp.minsi 99#32 (IntOp.maxsi 0#32 v)).toInt ∧ (IntOp.minsi 99#32 (IntOp.maxsi 0#32 v)).toInt ≤ 99 := by
  unfold IntOp.minsi IntOp.maxsi
  have h0 : (0#32 : BitVec 32).toInt = 0 := by decide
  have h99 : (99#32 : BitVec 32).toInt = 99 := by decide
  by_cases h1 : v.slt 0#32
  · rw [if_pos h1, if_neg (by decide : ¬ ((99#32 : BitVec 32).slt 0#32) = true), h0]
    omega
  · rw [if_neg h1]
    have hv : 0 ≤ v.toInt := by
      simp only [BitVec.slt, decide_eq_true_eq, not_lt, h0] at h1
      exact h1
    by_cases h2 : (99#32 : BitVec 32).slt v
    · rw [if_pos h2, h99]; omega
    · rw [if_neg h2]
      simp only [BitVec.slt, decide_eq_true_eq, not_lt, h99] at h2
      omega

/-- A word whose signed reading is in `[0, 99]` has that reading as its unsigned one. -/
theorem toNat_of_range (w : BitVec 32) (h0 : 0 ≤ w.toInt) (h1 : w.toInt ≤ 99) :
    (w.toNat : ℤ) = w.toInt ∧ w.toNat ≤ 99 := by
  have hlt := w.isLt
  have e := BitVec.toInt_eq_toNat_cond w
  by_cases hc : 2 * w.toNat < 2 ^ 32
  · rw [if_pos hc] at e; omega
  · rw [if_neg hc] at e; omega

/-- The one-hot weight of lane `k` for the word `w`: the equality test, widened to a word and converted signed,
    is the extended real 1 when `w` is lane `k`'s number and 0 when it is not. -/
theorem onehot_weight (w : BitVec 32) (k : Nat) (hk : k < 2 ^ 32) :
    (FloatOps.sitofp (F := Ideal) .f32 ((IntOp.cmpi .eq w (BitVec.ofNat 32 k)).setWidth 32) : EReal)
      = if w.toNat = k then 1 else 0 := by
  show ((((IntOp.cmpi .eq w (BitVec.ofNat 32 k)).setWidth 32).toInt : ℝ) : EReal) = _
  have hiff : w = BitVec.ofNat 32 k ↔ w.toNat = k := by
    constructor
    · intro e; rw [e, BitVec.toNat_ofNat]; exact Nat.mod_eq_of_lt hk
    · intro e; apply BitVec.eq_of_toNat_eq; rw [BitVec.toNat_ofNat, e]; exact (Nat.mod_eq_of_lt hk).symm
  by_cases h : w.toNat = k
  · rw [if_pos h]
    have e : IntOp.cmpi .eq w (BitVec.ofNat 32 k) = 1#1 := by
      unfold IntOp.cmpi
      simp [hiff.2 h]
    rw [e]
    have : ((1#1 : BitVec 1).setWidth 32).toInt = 1 := by decide
    rw [this]; norm_num
  · rw [if_neg h]
    have e : IntOp.cmpi .eq w (BitVec.ofNat 32 k) = 0#1 := by
      unfold IntOp.cmpi
      have hb : (w == BitVec.ofNat 32 k) = false := beq_eq_false_iff_ne.mpr fun e => h (hiff.1 e)
      rw [hb]; rfl
    rw [e]
    have : ((0#1 : BitVec 1).setWidth 32).toInt = 0 := by decide
    rw [this]; norm_num

/-- The one-hot row times a column: the column's entry at the word. -/
theorem onehot_sum (w : BitVec 32) (hw : w.toNat < 128) (t : Fin 128 → EReal) :
    ∑ k : Fin 128, (FloatOps.sitofp (F := Ideal) .f32 ((IntOp.cmpi .eq w (BitVec.ofNat 32 k.val)).setWidth 32) : EReal) * t k
      = t ⟨w.toNat, hw⟩ := by
  rw [Finset.sum_eq_single (⟨w.toNat, hw⟩ : Fin 128)]
  · rw [onehot_weight w w.toNat (by omega), if_pos rfl, one_mul]
  · intro k _ hne
    have hk : k.val < 2 ^ 32 := by have := k.isLt; omega
    rw [onehot_weight w k.val hk, if_neg (fun e => hne (Fin.ext e.symm)), zero_mul]
  · intro h; exact absurd (Finset.mem_univ _) h

/-! ## The matrix product that gathers rows -/

open Idealize.ShloMosaic.ValueIdx

/-- The plain `m×k` by `k×n` product into a zero accumulator, at an index: the sum over the contracted coordinate.
    (The host's plain product is that sum, and the matrix unit's into zero is the same sum.) -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) := by
  rw [Ideal.matmul_constant_zero_apply, ← StackMember.dotGeneral_plain_apply prec A B a b]
  show _ = FloatOps.dotGeneral _ prec _ A B (ix2 a b)
  rw [Ideal.dotGeneral_apply]

/-- One entry of the gathering product.  `iv` is the column of row words, `tbl` the table; the side conditions are
    the shape facts the operations carry. -/
theorem onehot_matmul_apply (iv : IVec ⟨2, ![512, 1]⟩ 32) (tbl : FVec Ideal ⟨2, ![128, 512]⟩ .f32)
    (hc : (⟨2, ![512, 1]⟩ : Shape).ShapeCasts ⟨2, ![512, 1]⟩)
    (hio : (⟨2, ![1, 128]⟩ : Shape).Iotas .tc 32 [1])
    (hb1 : (⟨2, ![512, 1]⟩ : Shape).Broadcasts ⟨2, ![512, 128]⟩)
    (hb2 : (⟨2, ![1, 128]⟩ : Shape).Broadcasts ⟨2, ![512, 128]⟩)
    (hlt : 1 < 32) (ht : (⟨2, ![128, 512]⟩ : Shape).ShapeCasts ⟨2, ![128, 512]⟩)
    (r : Fin 512) (j : Fin 512) (hw : (iv (ix2 r 0)).toNat < 128) :
    matmul (F := Ideal) (DotDims.plain 512 128 512) none
        (sitofp .f32 (extui 32 (cmpi .eq (broadcastTo ⟨2, ![512, 128]⟩ (shapeCast ⟨2, ![512, 1]⟩ iv hc) hb1)
          (broadcastTo ⟨2, ![512, 128]⟩ (iota .tc ⟨2, ![1, 128]⟩ 32 [1] hio) hb2)) hlt))
        (shapeCast ⟨2, ![128, 512]⟩ tbl ht) (constant ⟨2, ![512, 512]⟩ .f32 0x00000000#32) (ix2 r j)
      = tbl (ix2 ⟨(iv (ix2 r 0)).toNat, hw⟩ j) := by
  show FloatOps.matmul _ _ _ _ _ _ = _
  rw [matmul_plain_zero_apply, shapeCast_self, shapeCast_self]
  rw [← onehot_sum (iv (ix2 r 0)) hw (fun c => tbl (ix2 c j))]
  refine Finset.sum_congr rfl fun c _ => ?_
  congr 1
  show FloatOps.sitofp .f32 ((IntOp.cmpi .eq (broadcastTo ⟨2, ![512, 128]⟩ iv hb1 (ix2 r c))
      (broadcastTo ⟨2, ![512, 128]⟩ (iota .tc ⟨2, ![1, 128]⟩ 32 [1] hio) hb2 (ix2 r c))).setWidth 32) = _
  rw [broadcastTo_apply iv hb1 (ix2 r c) (ix2 r 0) (fun a => by
        match a with
        | ⟨0, _⟩ => rfl
        | ⟨1, _⟩ => rfl),
    broadcastTo_apply _ hb2 (ix2 r c) (ix2 (0 : Fin 1) c) (fun a => by
        match a with
        | ⟨0, _⟩ => rfl
        | ⟨1, _⟩ => rfl),
    iota_single_apply]

end Cert.PosEnc

end
-- ==== Proof.Centre.lean ====
/-
  The centre words, and the result as one function.

  Both programs turn a box `(x0, y0, x1, y1)` into two table rows the same way: the sum of two of the box's coordinates,
  times 0.5, times 99, converted to a 32-bit integer, clipped to `[0, 99]`.  `centreWords` is that computation on the whole
  `[8, 4096, 4]` array of boxes, for the two coordinates at offsets `o₁` and `o₂` of the last axis; it is the same term
  whatever the float instance, and at an index it is the clip of some word, so it reads in `[0, 99]`.

  On such a word the reference's index normalisation (add 100 when negative) does nothing and the gather's clamp into
  `[0, 99]` does nothing: the row read is the word itself (`start_row`).

  `posEncFlat` is the kernel's result over the flattened `[32768, 1024]` layout as ONE function of the flat centre columns,
  the flat `x` and the two padded tables: `x` plus, in the left 512 columns, the row of the first table the first
  centre names, and in the right 512 columns the row of the second table the second centre names.  `posEnc` is the same
  over the `[8, 4096, 1024]` layout and the unpadded tables: what both programs end holding.
-/
import Idealize.ShloMosaic.PureOps.Ideal
import Idealize.ShloMosaic.Lib.ValueIdx

noncomputable section

namespace Cert.PosEnc

open Idealize.ShloMosaic Idealize.ShloMosaic.ValueIdx

/-- The clipped centre words of the boxes along the coordinates at offsets `o₁`, `o₂`. -/
def centreWords {F : FTy → Type} [FloatOps F] (boxes : FVec F ⟨3, ![8, 4096, 4]⟩ .f32) (o₁ o₂ : Fin 3 → Nat)
    (h₁ : (⟨3, ![8, 4096, 4]⟩ : Shape).Slices o₁ ⟨3, ![8, 4096, 1]⟩)
    (h₂ : (⟨3, ![8, 4096, 4]⟩ : Shape).Slices o₂ ⟨3, ![8, 4096, 1]⟩)
    (hc : (⟨3, ![8, 4096, 1]⟩ : Shape).ShapeCasts ⟨2, ![8, 4096]⟩)
    (hb : (⟨0, ![]⟩ : Shape).BroadcastsInDim ⟨2, ![8, 4096]⟩ (![] : Fin 0 → Fin 2)) : IVec ⟨2, ![8, 4096]⟩ 32 :=
  minsi (broadcastInDim ⟨2, ![8, 4096]⟩ ![] hb (id (constantI ⟨0, ![]⟩ 32 99#32)))
    (maxsi (broadcastInDim ⟨2, ![8, 4096]⟩ ![] hb (id (constantI ⟨0, ![]⟩ 32 0#32)))
      (fptosi 32 (mulf (mulf (addf (shapeCast _ (extractStridedSlice ⟨3, ![8, 4096, 1]⟩ o₁ boxes h₁) hc)
          (shapeCast _ (extractStridedSlice ⟨3, ![8, 4096, 1]⟩ o₂ boxes h₂) hc))
        (broadcastInDim ⟨2, ![8, 4096]⟩ ![] hb (constant ⟨0, ![]⟩ .f32 0x3F000000#32)))
        (broadcastInDim ⟨2, ![8, 4096]⟩ ![] hb (constant ⟨0, ![]⟩ .f32 0x42C60000#32)))))

/-- At an index a centre word is the clip of some word. -/
theorem centreWords_apply {F : FTy → Type} [FloatOps F] (boxes : FVec F ⟨3, ![8, 4096, 4]⟩ .f32) (o₁ o₂ : Fin 3 → Nat)
    (h₁ h₂ hc hb) (i : (⟨2, ![8, 4096]⟩ : Shape).Idx) :
    ∃ v : BitVec 32, centreWords boxes o₁ o₂ h₁ h₂ hc hb i = IntOp.minsi 99#32 (IntOp.maxsi 0#32 v) :=
  ⟨_, rfl⟩

/-- The reference's start row for an in-range word: negative-index wrap and the gather's clamp both leave it. -/
theorem start_row (w : BitVec 32) (h0 : 0 ≤ w.toInt) (h1 : w.toInt ≤ 99) :
    min (Scalar.select (IntOp.cmpi .slt w 0#32) (IntOp.addi w 100#32) w).toInt.toNat (100 - 1) = w.toInt.toNat := by
  have hs : IntOp.cmpi .slt w 0#32 = 0#1 := by
    unfold IntOp.cmpi
    have : w.slt 0#32 = false := by
      have h00 : (0#32 : BitVec 32).toInt = 0 := by decide
      simp only [BitVec.slt, h00, decide_eq_false_iff_not, not_lt]
      exact h0
    simp only [this]; rfl
  rw [hs, select_zero]
  omega

/-- The row of a 128-row table a word names (its unsigned reading, folded into the 128 rows so that the function is
    total; the words met here are below 100). -/
def rowOf (w : BitVec 32) : Fin 128 := ⟨w.toNat % 128, Nat.mod_lt _ (by decide)⟩

/-- The result over the flat layout, as one function of the flat centre columns, the flat `x` and the padded tables. -/
def posEncFlat (cy cx : IVec ⟨2, ![32768, 1]⟩ 32) (x : FVec Ideal ⟨2, ![32768, 1024]⟩ .f32)
    (th tw : FVec Ideal ⟨2, ![128, 512]⟩ .f32) : FVec Ideal ⟨2, ![32768, 1024]⟩ .f32 := fun i =>
  x i + (if h : (i 1).val < 512 then th (ix2 (rowOf (cy (ix2 (i 0) 0))) ⟨(i 1).val, h⟩)
         else tw (ix2 (rowOf (cx (ix2 (i 0) 0))) ⟨(i 1).val - 512, by have := idx2_lt1 i; omega⟩))

/-- The row of a 100-row table a word names (folded into the 100 rows so that the function is total). -/
def row100 (w : BitVec 32) : Fin 100 := ⟨w.toNat % 100, Nat.mod_lt _ (by decide)⟩

/-- THE RESULT, over `[8, 4096, 1024]`, as one function of `x`, the two arrays of centre words and the two tables: at
    `(b, s, j)` it is `x` plus the first table's row `cy[b, s]` at column `j` in the left 512 columns, and the second
    table's row `cx[b, s]` at column `j - 512` in the right 512 columns.  Both programs end holding it. -/
def posEnc (x : FVec Ideal ⟨3, ![8, 4096, 1024]⟩ .f32) (cy cx : IVec ⟨2, ![8, 4096]⟩ 32)
    (pe_h pe_w : FVec Ideal ⟨2, ![100, 512]⟩ .f32) : FVec Ideal ⟨3, ![8, 4096, 1024]⟩ .f32 := fun i =>
  x i + (if h : (i 2).val < 512 then pe_h (ix2 (row100 (cy (ix2 (i 0) (i 1)))) ⟨(i 2).val, h⟩)
         else pe_w (ix2 (row100 (cx (ix2 (i 0) (i 1)))) ⟨(i 2).val - 512, by have h2 : (i 2).val < 1024 := (i 2).isLt; show (i 2).val - 512 < 512; omega⟩))

/-- A word at most 99 names its own row of a 100-row table. -/
theorem row100_of_le (w : BitVec 32) (h : w.toNat ≤ 99) : row100 w = ⟨w.toNat, by omega⟩ :=
  Fin.ext (Nat.mod_eq_of_lt (by omega))

end Cert.PosEnc

end
-- ==== Proof.CentreRange.lean ====
/-
  Every centre word reads, signed, in `[0, 99]`: it is a clip to that range.
-/
import proofs.«145960_j3418793967837_1_alg».proof.Proof.OneHot
import proofs.«145960_j3418793967837_1_alg».proof.Proof.Centre

noncomputable section

namespace Cert.PosEnc

open Idealize.ShloMosaic

theorem centre_range' {F : FTy → Type} [FloatOps F] (bx : FVec F ⟨3, ![8, 4096, 4]⟩ .f32) (o₁ o₂ : Fin 3 → Nat) (h₁ h₂ hc hb)
    (i : (⟨2, ![8, 4096]⟩ : Shape).Idx) :
    0 ≤ (centreWords bx o₁ o₂ h₁ h₂ hc hb i).toInt ∧ (centreWords bx o₁ o₂ h₁ h₂ hc hb i).toInt ≤ 99 := by
  obtain ⟨v, hv⟩ := centreWords_apply bx o₁ o₂ h₁ h₂ hc hb i
  rw [hv]; exact clip_toInt v

end Cert.PosEnc

end
-- ==== Proof.KernelArrays.lean ====
/-
  What the kernel's windows are launched on.

  The host operations before the region leave, in the arrays the five input windows stage: the centre words of the boxes'
  `y` coordinates (offsets 1 and 3) and of their `x` coordinates (offsets 0 and 2), each flattened to a column
  `[32768, 1]`; `x` flattened to `[32768, 1024]`; and each `[100, 512]` table written into the first 100 rows of a
  `[128, 512]` array of zeros.  Every centre word, being a clip to `[0, 99]`, is below 128 read unsigned.
-/
import proofs.«145960_j3418793967837_1_alg».proof.Proof.Gen.KernelIdeal.Frame
import proofs.«145960_j3418793967837_1_alg».proof.Proof.OneHot
import proofs.«145960_j3418793967837_1_alg».proof.Proof.Centre
import proofs.«145960_j3418793967837_1_alg».proof.Proof.CentreRange
import Idealize.ShloMosaic.Lib.StableHlo.Run

noncomputable section

namespace Cert.KernelIdeal.PosEnc

open Cert.KernelIdeal Cert.KernelIdeal.Gen Idealize.ShloMosaic Idealize.ShloMosaic.TcCoe Idealize.SL.Sem
open Idealize.ShloMosaic.ValueIdx Cert.PosEnc

variable (m : (ℓ : Loc nD τ sig) → Buf (Elt Ideal) ℓ)

/-- The boxes as launched. -/
abbrev boxes (c : Dev nD) : FVec Ideal S8x4096x4 .f32 := m ((c : Thread nD τ).loc main_arg1)

/-- The `y` centre words (box coordinates 1 and 3), `[8, 4096]`. -/
abbrev cyWords (c : Dev nD) : IVec S8x4096 32 :=
  centreWords (boxes m c) ![0, 0, 1] ![0, 0, 3] slices_S8x4096x4_S8x4096x1_0_0_1 slices_S8x4096x4_S8x4096x1_0_0_3
    shapeCasts_S8x4096x1_S8x4096 bcast_S_S8x4096
/-- The `x` centre words (box coordinates 0 and 2), `[8, 4096]`. -/
abbrev cxWords (c : Dev nD) : IVec S8x4096 32 :=
  centreWords (boxes m c) ![0, 0, 0] ![0, 0, 2] slices_S8x4096x4_S8x4096x1_0_0_0 slices_S8x4096x4_S8x4096x1_0_0_2
    shapeCasts_S8x4096x1_S8x4096 bcast_S_S8x4096

/-- The arrays the windows stage, each at its literal type. -/
abbrev cyArr (c : Dev nD) : IVec S32768x1 32 := V m c main_v23
abbrev cxArr (c : Dev nD) : IVec S32768x1 32 := V m c main_v24
abbrev xArr (c : Dev nD) : FVec Ideal S32768x1024 .f32 := V m c main_v22
abbrev thArr (c : Dev nD) : FVec Ideal S128x512 .f32 := V m c main_v27
abbrev twArr (c : Dev nD) : FVec Ideal S128x512 .f32 := V m c main_v30

set_option maxHeartbeats 2000000 in
/-- Window 0's array: the `y` centre words as a column. -/
theorem cyArr_eq (c : Dev nD) : cyArr m c = shapeCast S32768x1 (cyWords m c) shapeCasts_S8x4096_S32768x1 := by
  show (V m c main_v23 : S32768x1.Idx → BitVec 32) = _
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

set_option maxHeartbeats 2000000 in
/-- Window 1's array: the `x` centre words as a column. -/
theorem cxArr_eq (c : Dev nD) : cxArr m c = shapeCast S32768x1 (cxWords m c) shapeCasts_S8x4096_S32768x1 := by
  show (V m c main_v24 : S32768x1.Idx → BitVec 32) = _
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  rfl

/-- Window 2's array: `x` flattened. -/
theorem xArr_eq (c : Dev nD) :
    xArr m c = shapeCast S32768x1024 (m ((c : Thread nD τ).loc main_arg0)) shapeCasts_S8x4096x1024_S32768x1024 := by
  show (V m c main_v22 : S32768x1024.Idx → EReal) = _
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- Window 3's array: the first table written over the first rows of zeros. -/
theorem thArr_eq (c : Dev nD) :
    thArr m c = Host.scatter scatter_S128x512_S1_S100x512_01_n_0_0 (fun _ b => b)
      (broadcastInDim S128x512 ![] bcast_S_S128x512 (constant (F := Ideal) S_ .f32 0x00000000#32))
      (broadcastInDim S1 ![] bcast_S_S1 (constantI S_ 32 0#32)) (m ((c : Thread nD τ).loc main_arg2)) := by
  show (V m c main_v27 : S128x512.Idx → EReal) = _
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results

/-- Window 4's array: the second table written over the first rows of zeros. -/
theorem twArr_eq (c : Dev nD) :
    twArr m c = Host.scatter scatter_S128x512_S1_S100x512_01_n_0_0 (fun _ b => b)
      (broadcastInDim S128x512 ![] bcast_S_S128x512 (constant (F := Ideal) S_ .f32 0x00000000#32))
      (broadcastInDim S1 ![] bcast_S_S1 (constantI S_ 32 0#32)) (m ((c : Thread nD τ).loc main_arg3)) := by
  show (V m c main_v30 : S128x512.Idx → EReal) = _
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results

/-- A column of words in `[0, 99]`, however reshaped, has every word below 128 read unsigned. -/
theorem words_lt (W : IVec S8x4096 32) (hW : ∀ i, 0 ≤ (W i).toInt ∧ (W i).toInt ≤ 99)
    (i : S32768x1.Idx) : (shapeCast S32768x1 W shapeCasts_S8x4096_S32768x1 i).toNat < 128 := by
  show (W (Shape.reshapeEquiv shapeCasts_S8x4096_S32768x1 i)).toNat < 128
  have h := hW (Shape.reshapeEquiv shapeCasts_S8x4096_S32768x1 i)
  have := toNat_of_range _ h.1 h.2
  omega

/-- Every word of the `y` column is below 128. -/
theorem cyArr_lt (c : Dev nD) (i : S32768x1.Idx) : (cyArr m c i).toNat < 128 := by
  rw [cyArr_eq]
  exact words_lt (cyWords m c) (fun i => centre_range' (boxes m c) ![0, 0, 1] ![0, 0, 3] slices_S8x4096x4_S8x4096x1_0_0_1
    slices_S8x4096x4_S8x4096x1_0_0_3 shapeCasts_S8x4096x1_S8x4096 bcast_S_S8x4096 i) i

/-- Every word of the `x` column is below 128. -/
theorem cxArr_lt (c : Dev nD) (i : S32768x1.Idx) : (cxArr m c i).toNat < 128 := by
  rw [cxArr_eq]
  exact words_lt (cxWords m c) (fun i => centre_range' (boxes m c) ![0, 0, 0] ![0, 0, 2] slices_S8x4096x4_S8x4096x1_0_0_0
    slices_S8x4096x4_S8x4096x1_0_0_2 shapeCasts_S8x4096x1_S8x4096 bcast_S_S8x4096 i) i

end Cert.KernelIdeal.PosEnc

end
-- ==== Proof.Payload.lean ====
/-
  The kernel body's stored value at an index.

  The body stores `x + [h_enc | w_enc]`, where `h_enc` is the one-hot matrix of the first centre column times the first
  padded table and `w_enc` the same for the second.  At `(p, q)` of the `512 × 1024` block that is `x (p, q)` plus the
  entry in column `q` (left half) or `q - 512` (right half) of the table row the centre word at row `p` names — as long
  as that word is a lane number, below 128.
-/
import proofs.«145960_j3418793967837_1_alg».proof.Proof.Gen.KernelIdeal.Skeleton
import proofs.«145960_j3418793967837_1_alg».proof.Proof.OneHot
import proofs.«145960_j3418793967837_1_alg».proof.Proof.Centre

noncomputable section

namespace Cert.KernelIdeal.PosEnc

open Cert.KernelIdeal Cert.KernelIdeal.Gen Idealize.ShloMosaic Idealize.ShloMosaic.ValueIdx Cert.PosEnc

/-- The printed contraction record is the plain `512×128` by `128×512` product. -/
theorem dot_eq_plain : dot_S512x128_S128x512_S512x512_1_0_0_1_n_n = DotDims.plain 512 128 512 := rfl

/-- A word below 128 names its own row. -/
theorem rowOf_of_lt (w : BitVec 32) (hw : w.toNat < 128) : rowOf w = ⟨w.toNat, hw⟩ :=
  Fin.ext (Nat.mod_eq_of_lt hw)

/-- Left half: columns `0 … 511` add the first table's row. -/
theorem pay_left (v0 v2 : Vec Ideal S512x1 .i32) (v15 v18 : Vec Ideal S128x512 .f32) (v22 : Vec Ideal S512x1024 .f32)
    (p : Fin 512) (q : Fin 1024) (hq : q.val < 512) (hw : (v0 (ix2 p 0)).toNat < 128) :
    k0_pay1 (F := Ideal) v0 v2 v15 v18 v22 (ix2 p q)
      = v22 (ix2 p q) + v15 (ix2 (rowOf (v0 (ix2 p 0))) ⟨q.val, hq⟩) := by
  unfold k0_pay1
  dsimp only
  show shapeCast S512x1024 v22 _ (ix2 p q) + concatenate S512x1024 1 _ _ (ix2 p q) = _
  rw [shapeCast_self v22, rowOf_of_lt _ hw]
  refine congrArg (v22 (ix2 p q) + ·) ?_
  refine (concatenate_pair_apply_left (t := S512x1024) (s₁ := S512x512) (s₂ := S512x512) (1 : Fin 2) _ _ concatenates_S512x512_S512x512_S512x1024_d1 (ix2 p q) rfl
    (ix2 p (⟨q.val, hq⟩ : Fin 512)) (fun b => by
      match b with
      | ⟨0, _⟩ => rfl
      | ⟨1, _⟩ => rfl)).trans ?_
  exact onehot_matmul_apply v0 v15 _ _ _ _ _ _ p ⟨q.val, hq⟩ hw

/-- Right half: columns `512 … 1023` add the second table's row. -/
theorem pay_right (v0 v2 : Vec Ideal S512x1 .i32) (v15 v18 : Vec Ideal S128x512 .f32) (v22 : Vec Ideal S512x1024 .f32)
    (p : Fin 512) (q : Fin 1024) (hq : ¬ q.val < 512) (hw : (v2 (ix2 p 0)).toNat < 128) :
    k0_pay1 (F := Ideal) v0 v2 v15 v18 v22 (ix2 p q)
      = v22 (ix2 p q) + v18 (ix2 (rowOf (v2 (ix2 p 0))) ⟨q.val - 512, by have := q.isLt; omega⟩) := by
  unfold k0_pay1
  dsimp only
  show shapeCast S512x1024 v22 _ (ix2 p q) + concatenate S512x1024 1 _ _ (ix2 p q) = _
  rw [shapeCast_self v22, rowOf_of_lt _ hw]
  refine congrArg (v22 (ix2 p q) + ·) ?_
  have hq' : q.val - 512 < 512 := by have := q.isLt; omega
  refine (concatenate_pair_apply_right (t := S512x1024) (s₁ := S512x512) (s₂ := S512x512) (1 : Fin 2) _ _ concatenates_S512x512_S512x512_S512x1024_d1 (ix2 p q) rfl rfl
    (ix2 p (⟨q.val - 512, hq'⟩ : Fin 512)) (fun b hb => by
      match b with
      | ⟨0, _⟩ => rfl
      | ⟨1, _⟩ => exact absurd rfl hb) (by
      show (q.val - 512) + 512 = q.val
      omega)).trans ?_
  exact onehot_matmul_apply v2 v18 _ _ _ _ _ _ p ⟨q.val - 512, hq'⟩ hw

/-- The stored block at an index, both halves at once. -/
theorem pay_apply (v0 v2 : Vec Ideal S512x1 .i32) (v15 v18 : Vec Ideal S128x512 .f32) (v22 : Vec Ideal S512x1024 .f32)
    (p : Fin 512) (q : Fin 1024) (hw0 : (v0 (ix2 p 0)).toNat < 128) (hw2 : (v2 (ix2 p 0)).toNat < 128) :
    k0_pay1 (F := Ideal) v0 v2 v15 v18 v22 (ix2 p q)
      = v22 (ix2 p q) + (if h : q.val < 512 then v15 (ix2 (rowOf (v0 (ix2 p 0))) ⟨q.val, h⟩)
          else v18 (ix2 (rowOf (v2 (ix2 p 0))) ⟨q.val - 512, by have := q.isLt; omega⟩)) := by
  by_cases h : q.val < 512
  · rw [dif_pos h]; exact pay_left v0 v2 v15 v18 v22 p q h hw0
  · rw [dif_neg h]; exact pay_right v0 v2 v15 v18 v22 p q h hw2

end Cert.KernelIdeal.PosEnc

end
-- ==== Proof.KernelValue.lean ====
/-
  The kernel's result array, and its run with the result named.

  Grid point `t` of the 64 stages rows `512 t … 512 t + 511` of the two centre columns and of the flat `x`, and the two
  padded tables whole; what it writes back is block `t` of `posEncFlat` of those arrays (the stored value at an index,
  Payload.lean, with each block read where the output block's rectangle says).  The 64 output blocks tile the
  `[32768, 1024]` array, so after the region it holds `posEncFlat` whole; the one host operation after the region
  reshapes it to `[8, 4096, 1024]`.
-/
import proofs.«145960_j3418793967837_1_alg».proof.Proof.KernelArrays
import proofs.«145960_j3418793967837_1_alg».proof.Proof.Payload
import Idealize.ShloMosaic.Lib.Pipeline.Value

set_option maxRecDepth 16384

noncomputable section

namespace Cert.KernelIdeal.PosEnc

open Cert.KernelIdeal Cert.KernelIdeal.Gen Idealize.ShloMosaic Idealize.ShloMosaic.TcCoe Idealize.SL.Sem
open Idealize.ShloMosaic.ValueIdx Cert.PosEnc
open Idealize.ShloMosaic.Pipeline (Dat)

variable (m : (ℓ : Loc nD τ sig) → Buf (Elt Ideal) ℓ) (ρ : Dev nD → PrngReg)

/-- The flat result as one function of the arrays the windows stage. -/
def flatResult (c : Dev nD) : FVec Ideal S32768x1024 .f32 :=
  posEncFlat (cyArr m c) (cxArr m c) (xArr m c) (thArr m c) (twArr m c)

theorem hz : (![0, 0] : Fin 2 → Nat) = fun _ => 0 := funext fun a => by fin_cases a <;> rfl

/-- The printed index maps over the grid: the three row-blocked inputs and the output sit at block row `t`, column 0;
    the tables at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- One stored block against the flat result, over plain blocks: if the staged blocks are rows `512 T + p` of the
    columns and of `x`, the stored value at `j` is the flat result at row `512 T + j₀`, column `j₁`. -/
theorem block_eq (cy cx : IVec S32768x1 32) (x : FVec Ideal S32768x1024 .f32) (th tw : FVec Ideal S128x512 .f32)
    (b0 b1 : Vec Ideal S512x1 .i32) (b2 : Vec Ideal S512x1024 .f32) (T : Nat) (hT : T < 64)
    (h0 : ∀ p : Fin 512, b0 (ix2 p 0) = cy (ix2 ⟨T * 512 + p.val, by have := p.isLt; omega⟩ 0))
    (h1 : ∀ p : Fin 512, b1 (ix2 p 0) = cx (ix2 ⟨T * 512 + p.val, by have := p.isLt; omega⟩ 0))
    (h2 : ∀ (p : Fin 512) (q : Fin 1024), b2 (ix2 p q) = x (ix2 ⟨T * 512 + p.val, by have := p.isLt; omega⟩ q))
    (hcy : ∀ i, (cy i).toNat < 128) (hcx : ∀ i, (cx i).toNat < 128) (j : S512x1024.Idx) :
    k0_pay1 (F := Ideal) b0 b1 th tw b2 j
      = posEncFlat cy cx x th tw (ix2 ⟨T * 512 + (j 0).val, by have := idx2_lt0 j; omega⟩ (j 1)) := by
  obtain ⟨p, q, rfl⟩ : ∃ (p : Fin 512) (q : Fin 1024), j = ix2 p q := ⟨j 0, j 1, eq_ix2 j⟩
  rw [pay_apply b0 b1 th tw b2 p q (by rw [h0]; exact hcy _) (by rw [h1]; exact hcx _), h0, h1, h2]
  rfl

/-! ## Each staged block, read where its rectangle says

The three row-blocked inputs at point `t` are rows `512 t + p` of their arrays; the two tables are staged whole. -/

set_option maxHeartbeats 1000000 in
theorem blk0_apply (c : Dev nD) (t : Fin cfg0.N) (hT : t.val < 64) (p : Fin 512) :
    (iblk m c 0 t : S512x1.Idx → BitVec 32) (ix2 p 0)
      = cyArr m c (ix2 ⟨t.val * 512 + p.val, by have := p.isLt; omega⟩ 0) := by
  obtain ⟨e00, e01, -⟩ := idx_facts t
  show V m c main_v23 (((cfg0.win 0).blk t).view.emb (ix2 p 0)) = V m c main_v23 _
  refine congrArg (V m c main_v23) (funext fun a => Fin.ext ?_)
  match a with
  | ⟨0, _⟩ => show win0_0.index t (0 : Fin 2) * 512 + 1 * p.val = t.val * 512 + p.val; omega
  | ⟨1, _⟩ => show win0_0.index t (1 : Fin 2) * 1 + 1 * 0 = 0; omega

set_option maxHeartbeats 1000000 in
theorem blk1_apply (c : Dev nD) (t : Fin cfg0.N) (hT : t.val < 64) (p : Fin 512) :
    (iblk m c 1 t : S512x1.Idx → BitVec 32) (ix2 p 0)
      = cxArr m c (ix2 ⟨t.val * 512 + p.val, by have := p.isLt; omega⟩ 0) := by
  obtain ⟨-, -, e10, e11, -⟩ := idx_facts t
  show V m c main_v24 (((cfg0.win 1).blk t).view.emb (ix2 p 0)) = V m c main_v24 _
  refine congrArg (V m c main_v24) (funext fun a => Fin.ext ?_)
  match a with
  | ⟨0, _⟩ => show win0_1.index t (0 : Fin 2) * 512 + 1 * p.val = t.val * 512 + p.val; omega
  | ⟨1, _⟩ => show win0_1.index t (1 : Fin 2) * 1 + 1 * 0 = 0; omega

set_option maxHeartbeats 1000000 in
theorem blk2_apply (c : Dev nD) (t : Fin cfg0.N) (hT : t.val < 64) (p : Fin 512) (q : Fin 1024) :
    (iblk m c 2 t : S512x1024.Idx → EReal) (ix2 p q)
      = xArr m c (ix2 ⟨t.val * 512 + p.val, by have := p.isLt; omega⟩ q) := by
  obtain ⟨-, -, -, -, e20, e21, -⟩ := idx_facts t
  show V m c main_v22 (((cfg0.win 2).blk t).view.emb (ix2 p q)) = V m c main_v22 _
  refine congrArg (V m c main_v22) (funext fun a => Fin.ext ?_)
  match a with
  | ⟨0, _⟩ => show win0_2.index t (0 : Fin 2) * 512 + 1 * p.val = t.val * 512 + p.val; omega
  | ⟨1, _⟩ => show win0_2.index t (1 : Fin 2) * 1024 + 1 * q.val = q.val; omega

set_option maxHeartbeats 1000000 in
theorem blk3_eq (c : Dev nD) (t : Fin cfg0.N) : (iblk m c 3 t : S128x512.Idx → EReal) = thArr m c := by
  obtain ⟨-, -, -, -, -, -, e30, e31, -⟩ := idx_facts t
  funext y
  show V m c main_v27 (((cfg0.win 3).blk t).view.emb y) = V m c main_v27 y
  refine congrArg (V m c main_v27) (funext fun a => Fin.ext ?_)
  match a with
  | ⟨0, _⟩ => show win0_3.index t (0 : Fin 2) * 128 + 1 * (y 0).val = (y 0).val; omega
  | ⟨1, _⟩ => show win0_3.index t (1 : Fin 2) * 512 + 1 * (y 1).val = (y 1).val; omega

set_option maxHeartbeats 1000000 in
theorem blk4_eq (c : Dev nD) (t : Fin cfg0.N) : (iblk m c 4 t : S128x512.Idx → EReal) = twArr m c := by
  obtain ⟨-, -, -, -, -, -, -, -, e40, e41, -⟩ := idx_facts t
  funext y
  show V m c main_v30 (((cfg0.win 4).blk t).view.emb y) = V m c main_v30 y
  refine congrArg (V m c main_v30) (funext fun a => Fin.ext ?_)
  match a with
  | ⟨0, _⟩ => show win0_4.index t (0 : Fin 2) * 128 + 1 * (y 0).val = (y 0).val; omega
  | ⟨1, _⟩ => show win0_4.index t (1 : Fin 2) * 512 + 1 * (y 1).val = (y 1).val; omega

set_option maxHeartbeats 1000000 in
/-- Where the output block's entry `j` sits in the array: row `512 t + j₀`, column `j₁`. -/
theorem out_emb (t : Fin cfg0.N) (hT : t.val < 64) (j : S512x1024.Idx) :
    (ix2 (⟨t.val * 512 + (j 0).val, by have := idx2_lt0 j; omega⟩ : Fin 32768) (j 1) : S32768x1024.Idx)
      = ((cfg0.win 5).blk t).view.emb j := by
  obtain ⟨-, -, -, -, -, -, -, -, -, -, e50, e51⟩ := idx_facts t
  refine funext fun a => Fin.ext ?_
  match a with
  | ⟨0, _⟩ => show t.val * 512 + (j 0).val = win0_5.index t (0 : Fin 2) * 512 + 1 * (j 0).val; omega
  | ⟨1, _⟩ => show (j 1).val = win0_5.index t (1 : Fin 2) * 1024 + 1 * (j 1).val; omega

set_option maxHeartbeats 1000000 in
/-- WHAT POINT `t` WRITES BACK is block `t` of the flat result. -/
theorem flushed_eq (c : Dev nD) (t : Fin cfg0.N) :
    (dats m 0 c).flushed 5 t = ((cfg0.win 5).blk t).view.read (Elt Ideal) (flatResult m c) := by
  show (cfg0.win 5).cut (grid0.coords t) ((dats m 0 c).after 5 t) = _
  rw [after0_5]
  unfold out0_5
  rw [View.canon_unit_zero hz]
  simp only [View.ld_unit_zero (S := S512x1) hz, View.ld_unit_zero (S := S128x512) hz, View.ld_unit_zero (S := S512x1024) hz]
  have hT : t.val < 64 := by have h := t.isLt; have e : cfg0.N = 64 := N_0; omega
  funext j
  show k0_pay1 (F := Ideal) (iblk m c 0 t) (iblk m c 1 t) (iblk m c 3 t) (iblk m c 4 t) (iblk m c 2 t) j
      = flatResult m c (((cfg0.win 5).blk t).view.emb j)
  rw [blk3_eq m c t, blk4_eq m c t, ← out_emb t hT j]
  exact block_eq (cyArr m c) (cxArr m c) (xArr m c) (thArr m c) (twArr m c) (iblk m c 0 t) (iblk m c 1 t) (iblk m c 2 t)
    t.val hT (blk0_apply m c t hT) (blk1_apply m c t hT) (blk2_apply m c t hT) (cyArr_lt m c) (cxArr_lt m c) j

/-- An index of the array is in point `t`'s output block iff each coordinate is in the block's range on its axis. -/
theorem mem_blk (t : Fin cfg0.N) (i : S32768x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v31).slice (win0_5.rect t)).set ↔ _
  rw [View.set_slice_whole, Rect.mem_set_unit]
  exact Iff.rfl

/-- The 64 output blocks cover the array: row `r` is in the block of point `r / 512`. -/
theorem cover (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  let t : Fin cfg0.N := ⟨(i 0).val / 512, by have e : cfg0.N = 64 := N_0; omega⟩
  obtain ⟨-, -, -, -, -, -, -, -, -, -, e50, e51⟩ := idx_facts t
  have ht : t.val = (i 0).val / 512 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE ARRAY after the region: the flat result, whole. -/
theorem final (c : Dev nD) : (dats m 0 c).arrAt 5 cfg0.N = flatResult m c :=
  (dats m 0 c).arrAt_eq_of_cover 5 (flatResult m c) (fun t _ => flushed_eq m c t) cover

/-- What the host operation after the region leaves in the result buffer: the flat result reshaped. -/
theorem tail_result (c : Dev nD) :
    Pipeline.afterTail₀ cfgs (dats m) 0 (V0 m) [hostOps1] c main_v32
      = shapeCast S8x4096x1024 (flatResult m c) shapeCasts_S32768x1024_S8x4096x1024 := by
  unfold Pipeline.afterTail₀
  show StableHlo.after hostOps1 _ (Proc.devRef .tc main_v32) = _
  after_results
  exact congrArg (fun A => shapeCast S8x4096x1024 A shapeCasts_S32768x1024_S8x4096x1024)
    ((Pipeline.withArrays_arr spec0 launch0.win.arr_inj c _ _ 5).trans (final m c))

/-- THE KERNEL'S RUN with its result named: the flat result reshaped, the arguments unchanged. -/
theorem run : θ_run defs (onTc (τ := τ) (main (F := Ideal))) ⟨m, fun _ => 0, ρ⟩ fun r => ∀ c : Dev nD,
      r.2.mem ((c.tc : Thread nD τ).loc main_v32)
        = shapeCast S8x4096x1024 (flatResult m c) shapeCasts_S32768x1024_S8x4096x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v32 (Pipeline.mem_restRefs_of main_v32 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.PosEnc

end
-- ==== Proof.LibScatterSet.lean ====
/-
  A rank-1 overwriting scatter (`operand.at[indices].set(updates)`, one index per update, the operand's one axis
  inserted) read at an index: the element at `i` is the update of the LAST list entry whose index, read as a signed word,
  is `i`, and the operand's own element where no entry names `i` (an entry whose index is negative or past the end names
  nothing). General: any lengths, any element type.
-/
import Idealize.ShloMosaic.PureOps.ShapeOps
import Idealize.ShloMosaic.Lib.ValueIdx
import Idealize.ShloMosaic.Lib.StableHlo.Predicate

noncomputable section

namespace Cert.LibScatterSet

open Idealize.ShloMosaic Idealize.ShloMosaic.ValueIdx

/-! ## A left fold of overwriting steps, read at one index

A step either leaves the element at `i` alone (a miss) or sets it to the step's own value (a hit). After a fold the
element at `i` is the value of the last hit, or the starting element when every step misses. -/

/-- A fold of steps that all miss `i` leaves the element at `i` as it was. -/
theorem foldl_miss {β ι α : Type} (g : (ι → α) → β → (ι → α)) (i : ι) (hit : β → Prop)
    (hmiss : ∀ r n, ¬ hit n → g r n i = r i) :
    ∀ (l : List β) (x : ι → α), (∀ n ∈ l, ¬ hit n) → l.foldl g x i = x i
  | [], _, _ => rfl
  | a :: l, x, h => by
      rw [List.foldl_cons, foldl_miss g i hit hmiss l (g x a) (fun n hn => h n (List.mem_cons_of_mem _ hn)),
        hmiss x a (h a List.mem_cons_self)]

/-- A fold whose last hit of `i` is the step `k` (every later step misses) ends with `k`'s value at `i`. -/
theorem foldl_last_hit {β ι α : Type} (g : (ι → α) → β → (ι → α)) (i : ι) (hit : β → Prop) (val : β → α)
    (hmiss : ∀ r n, ¬ hit n → g r n i = r i) (hhit : ∀ r n, hit n → g r n i = val n)
    (l₁ l₂ : List β) (k : β) (hk : hit k) (h₂ : ∀ n ∈ l₂, ¬ hit n) (x : ι → α) :
    (l₁ ++ k :: l₂).foldl g x i = val k := by
  rw [List.foldl_append, List.foldl_cons, foldl_miss g i hit hmiss l₂ _ h₂, hhit _ _ hk]

/-! ## Where one update lands -/

/-- Update `j` of the rank-1 scatter lands on operand index `i` exactly when its index word, read signed, is `i`. -/
theorem resultIdx?_eq_some_iff {N n : Nat}
    (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1) (idx : IVec (⟨2, ![n, 1]⟩ : Shape) 32) (j : (⟨1, ![n]⟩ : Shape).Idx) (i : Fin N) :
    d.resultIdx? j idx = some (ix1 i) ↔ (idx (StableHlo.Predicate.ixP (j 0))).toInt = (i.val : ℤ) := by
  have hm : (0 : Fin 1) ∈ d.scatterDimsToOperandDims := by rw [hs]; exact List.mem_singleton.mpr rfl
  have hk : (0 : Fin 1) ∉ d.sKept := by
    simp [ScatterDims.sKept, Shape.kept, hi]
  -- the scatter-indices index an update reads: its own row, column 0
  have hsi : ∀ c, d.siIdx j c = StableHlo.Predicate.ixP (j 0) := by
    intro c
    funext b
    match b with
    | ⟨0, _⟩ =>
      unfold ScatterDims.siIdx
      rw [dif_neg (by rw [hv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hv])]
      apply Fin.ext
      have hc := c.isLt
      simp only [hs, List.length_singleton] at hc
      show c.val = 0
      omega
  have hstart : d.start j idx 0 = (idx (StableHlo.Predicate.ixP (j 0))).toInt := by
    unfold ScatterDims.start
    rw [dif_pos hm, hsi]
    rfl
  have hwin : d.window j 0 = 0 := by
    unfold ScatterDims.window
    rw [dif_neg hk]
  have hall : ∀ a : Fin 1, a = 0 := fun a => Subsingleton.elim _ _
  unfold ScatterDims.resultIdx?
  split
  · next h =>
    have h0 := h 0
    rw [hstart, hwin] at h0
    constructor
    · intro e
      have e' := congrFun (Option.some.inj e) 0
      have e'' := congrArg Fin.val e'
      simp only [hstart, hwin] at e''
      change ((idx (StableHlo.Predicate.ixP (j 0))).toInt + ((0 : Nat) : ℤ)).toNat = i.val at e''
      omega
    · intro e
      congr 1
      funext a
      rw [hall a]
      apply Fin.ext
      show (d.start j idx 0 + (d.window j 0 : ℤ)).toNat = i.val
      rw [hstart, hwin]
      omega
  · next h =>
    constructor
    · intro e; exact absurd e (by simp)
    · intro e
      exfalso
      apply h
      intro a
      rw [hall a, hstart, hwin]
      have := i.isLt
      show 0 ≤ _ + ((0 : Nat) : ℤ) ∧ _ + ((0 : Nat) : ℤ) < ((N : Nat) : ℤ)
      omega

open Classical in
/-- The overwriting scatter at index `i`. `StableHlo.Predicate.ixP k` is row `k` of the `[n, 1]` index array. -/
theorem scatter_set_apply {α : Type} {N n : Nat}
    (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1)
    (x : (⟨1, ![N]⟩ : Shape).Idx → α) (idx : IVec (⟨2, ![n, 1]⟩ : Shape) 32) (upd : (⟨1, ![n]⟩ : Shape).Idx → α) (i : Fin N) :
    Host.scatter d (fun _ b => b) x idx upd (ix1 i)
      = if h : ∃ k : Fin n, (idx (StableHlo.Predicate.ixP k)).toInt = (i.val : ℤ)
            ∧ ∀ k' : Fin n, (idx (StableHlo.Predicate.ixP k')).toInt = (i.val : ℤ) → k' ≤ k
        then upd (ix1 h.choose) else x (ix1 i) := by
  classical
  -- the update numbers that land on `i`
  let hit : Fin (⟨1, ![n]⟩ : Shape).numel → Prop := fun m =>
    d.resultIdx? ((⟨1, ![n]⟩ : Shape).rowMajor.symm m) idx = some (ix1 i)
  have hhitiff : ∀ m, hit m ↔
      (idx (StableHlo.Predicate.ixP ((⟨1, ![n]⟩ : Shape).rowMajor.symm m 0))).toInt = (i.val : ℤ) := fun m =>
    resultIdx?_eq_some_iff d hu hi hs hv idx _ i
  -- an update number is its index's one coordinate
  have hval : ∀ m : Fin (⟨1, ![n]⟩ : Shape).numel, ((⟨1, ![n]⟩ : Shape).rowMajor.symm m 0).val = m.val := fun m => by
    have e := Shape.rowMajor_val_one ((⟨1, ![n]⟩ : Shape).rowMajor.symm m)
    rw [Equiv.apply_symm_apply] at e
    exact e.symm
  -- the scatter is a fold of steps, each a miss or a hit at `i`
  obtain ⟨g, hg, hmiss, hhit⟩ : ∃ g : ((⟨1, ![N]⟩ : Shape).Idx → α) → Fin (⟨1, ![n]⟩ : Shape).numel → ((⟨1, ![N]⟩ : Shape).Idx → α),
      Host.scatter d (fun _ b => b) x idx upd = (List.finRange (⟨1, ![n]⟩ : Shape).numel).foldl g x
      ∧ (∀ r m, ¬ hit m → g r m (ix1 i) = r (ix1 i))
      ∧ (∀ r m, hit m → g r m (ix1 i) = upd ((⟨1, ![n]⟩ : Shape).rowMajor.symm m)) := by
    refine ⟨_, rfl, ?_, ?_⟩
    · intro r m hm
      have hm' : ¬ d.resultIdx? ((⟨1, ![n]⟩ : Shape).rowMajor.symm m) idx = some (ix1 i) := hm
      generalize d.resultIdx? ((⟨1, ![n]⟩ : Shape).rowMajor.symm m) idx = o at hm' ⊢
      cases o with
      | none => rfl
      | some i0 =>
        have hne : ¬ (ix1 i = i0) := fun e => hm' (congrArg some e.symm)
        exact if_neg hne
    · intro r m hm
      have hm' : d.resultIdx? ((⟨1, ![n]⟩ : Shape).rowMajor.symm m) idx = some (ix1 i) := hm
      generalize d.resultIdx? ((⟨1, ![n]⟩ : Shape).rowMajor.symm m) idx = o at hm' ⊢
      subst hm'
      exact if_pos rfl
  rw [hg]
  by_cases h : ∃ k : Fin n, (idx (StableHlo.Predicate.ixP k)).toInt = (i.val : ℤ)
      ∧ ∀ k' : Fin n, (idx (StableHlo.Predicate.ixP k')).toInt = (i.val : ℤ) → k' ≤ k
  · rw [dif_pos h]
    obtain ⟨hk1, hk2⟩ := h.choose_spec
    generalize h.choose = k at hk1 hk2
    -- the update number of `k`, and the list of update numbers split at it
    have hkm : (⟨1, ![n]⟩ : Shape).rowMajor.symm ((⟨1, ![n]⟩ : Shape).rowMajor (ix1 k)) = ix1 k :=
      Equiv.symm_apply_apply _ _
    have hkhit : hit ((⟨1, ![n]⟩ : Shape).rowMajor (ix1 k)) := by
      rw [hhitiff, hkm]; exact hk1
    obtain ⟨l₁, l₂, hsplit⟩ := List.append_of_mem (List.mem_finRange ((⟨1, ![n]⟩ : Shape).rowMajor (ix1 k)))
    have hpw : (l₁ ++ (⟨1, ![n]⟩ : Shape).rowMajor (ix1 k) :: l₂).Pairwise (· < ·) :=
      hsplit ▸ List.pairwise_lt_finRange _
    have hlater : ∀ m ∈ l₂, ¬ hit m := by
      intro m hm hmhit
      have hlt : (⟨1, ![n]⟩ : Shape).rowMajor (ix1 k) < m :=
        List.rel_of_pairwise_cons (List.pairwise_append.1 hpw).2.1 hm
      have hle := hk2 _ ((hhitiff m).1 hmhit)
      have h1 : ((⟨1, ![n]⟩ : Shape).rowMajor (ix1 k)).val = k.val := Shape.rowMajor_val_one _
      have h2 := hval m
      have h3 : ((⟨1, ![n]⟩ : Shape).rowMajor.symm m 0).val ≤ k.val := hle
      have h4 : ((⟨1, ![n]⟩ : Shape).rowMajor (ix1 k)).val < m.val := hlt
      omega
    rw [hsplit, foldl_last_hit g (ix1 i) hit _ hmiss hhit l₁ l₂ _ hkhit hlater x, hkm]
  · rw [dif_neg h]
    -- no entry names `i`: a nonempty set of such entries would have a greatest member
    have hnone : ∀ k : Fin n, (idx (StableHlo.Predicate.ixP k)).toInt ≠ (i.val : ℤ) := by
      intro k hk
      let S : Finset (Fin n) := Finset.univ.filter fun k => (idx (StableHlo.Predicate.ixP k)).toInt = (i.val : ℤ)
      have hne : S.Nonempty := ⟨k, Finset.mem_filter.2 ⟨Finset.mem_univ _, hk⟩⟩
      exact h ⟨S.max' hne, (Finset.mem_filter.1 (S.max'_mem hne)).2,
        fun k' hk' => S.le_max' k' (Finset.mem_filter.2 ⟨Finset.mem_univ _, hk'⟩)⟩
    exact foldl_miss g (ix1 i) hit hmiss _ x fun m _ hmhit => hnone _ ((hhitiff m).1 hmhit)

end Cert.LibScatterSet

end
-- ==== Proof.LibScatterRows.lean ====
/-
  A block of rows written into a taller array, read at an index.

  `x.at[:n].set(upd)` for an array `x` of `N` rows of `C` entries and an update of `n ≤ N` rows lowers to an overwriting
  scatter with ONE scatter index (the start row, here the word 0) whose update window is the whole update.  Every update
  element lands — element `(r, j)` of the update at `(r, j)` of the result — and no two land on one place, so the
  result holds the update on the first `n` rows and the operand below them.

  The first section is general: for ANY overwriting scatter all of whose update elements land, at pairwise distinct
  places, the result at an update's place is that update, and the operand's element at a place no update names.  It is
  read off the scatter's defining fold by the two fold lemmas of `LibScatterSet` (the last step to hit an index decides
  it; here exactly one step hits).
-/
import Idealize.ShloMosaic.PureOps.ShapeOps
import Idealize.ShloMosaic.Lib.ValueIdx
import Idealize.ShloMosaic.Lib.Pipeline.Value
import proofs.«145960_j3418793967837_1_alg».proof.Proof.LibScatterSet

noncomputable section

namespace Cert.LibScatterRows

open Idealize.ShloMosaic Idealize.ShloMosaic.ValueIdx

/-! ## Any overwriting scatter whose updates all land at distinct places -/

/-- At the place `e jj` where update element `jj` lands the result is that element. -/
theorem scatter_set_of_embed {α : Type} {s si u : Shape} {w : Nat} (d : ScatterDims s si u) (idx : IVec si w)
    (e : u.Idx → s.Idx) (he : Function.Injective e) (H : ∀ jj, d.resultIdx? jj idx = some (e jj))
    (x : s.Idx → α) (upd : u.Idx → α) (jj : u.Idx) :
    Host.scatter d (fun _ b => b) x idx upd (e jj) = upd jj := by
  classical
  let hit : Fin u.numel → Prop := fun n => u.rowMajor.symm n = jj
  obtain ⟨g, hg, hmiss, hhit⟩ : ∃ g : (s.Idx → α) → Fin u.numel → (s.Idx → α),
      Host.scatter d (fun _ b => b) x idx upd = (List.finRange u.numel).foldl g x
      ∧ (∀ r n, ¬ hit n → g r n (e jj) = r (e jj))
      ∧ (∀ r n, hit n → g r n (e jj) = upd (u.rowMajor.symm n)) := by
    refine ⟨_, rfl, ?_, ?_⟩
    · intro r n hn
      have hH := H (u.rowMajor.symm n)
      generalize d.resultIdx? (u.rowMajor.symm n) idx = o at hH ⊢
      subst hH
      exact if_neg (fun h => hn (he h).symm)
    · intro r n hn
      have hH := H (u.rowMajor.symm n)
      have hn' : u.rowMajor.symm n = jj := hn
      generalize d.resultIdx? (u.rowMajor.symm n) idx = o at hH ⊢
      subst hH
      rw [hn']
      exact if_pos rfl
  rw [hg]
  obtain ⟨l₁, l₂, hsplit⟩ := List.append_of_mem (List.mem_finRange (u.rowMajor jj))
  have hpw : (l₁ ++ u.rowMajor jj :: l₂).Pairwise (· < ·) := hsplit ▸ List.pairwise_lt_finRange _
  have hlater : ∀ n ∈ l₂, ¬ hit n := by
    intro n hn hh
    have hh' : u.rowMajor.symm n = jj := hh
    have hlt : u.rowMajor jj < n := List.rel_of_pairwise_cons (List.pairwise_append.1 hpw).2.1 hn
    have : u.rowMajor jj = n := by rw [← hh', Equiv.apply_symm_apply]
    exact absurd this (ne_of_lt hlt)
  have hk : hit (u.rowMajor jj) := Equiv.symm_apply_apply _ _
  rw [hsplit, Cert.LibScatterSet.foldl_last_hit g (e jj) hit _ hmiss hhit l₁ l₂ _ hk hlater x,
    Equiv.symm_apply_apply]

/-- At a place no update element lands on the result is the operand's element. -/
theorem scatter_set_of_embed_miss {α : Type} {s si u : Shape} {w : Nat} (d : ScatterDims s si u) (idx : IVec si w)
    (e : u.Idx → s.Idx) (H : ∀ jj, d.resultIdx? jj idx = some (e jj))
    (x : s.Idx → α) (upd : u.Idx → α) (i : s.Idx) (hi : ∀ jj, e jj ≠ i) :
    Host.scatter d (fun _ b => b) x idx upd i = x i := by
  classical
  obtain ⟨g, hg, hmiss⟩ : ∃ g : (s.Idx → α) → Fin u.numel → (s.Idx → α),
      Host.scatter d (fun _ b => b) x idx upd = (List.finRange u.numel).foldl g x
      ∧ (∀ r n, ¬ False → g r n i = r i) := by
    refine ⟨_, rfl, ?_⟩
    intro r n _
    have hH := H (u.rowMajor.symm n)
    generalize d.resultIdx? (u.rowMajor.symm n) idx = o at hH ⊢
    subst hH
    exact if_neg (fun h => hi _ h.symm)
  rw [hg]
  exact Cert.LibScatterSet.foldl_miss g i (fun _ => False) hmiss _ x (fun _ _ h => h)

/-! ## A block of rows written at row 0 -/

/-- The dimension numbers of `x.at[:n].set(upd)`: operand `[N, C]`, one scatter index, update `[n, C]`. -/
abbrev rowsDims (N n C : Nat)
    (wf : ScatterDims.WF ⟨2, ![N, C]⟩ ⟨1, ![1]⟩ ⟨2, ![n, C]⟩ [0, 1] [] [0] 0) :
    ScatterDims ⟨2, ![N, C]⟩ ⟨1, ![1]⟩ ⟨2, ![n, C]⟩ where
  updateWindowDims := [0, 1]
  insertedWindowDims := []
  scatterDimsToOperandDims := [0]
  indexVectorDim := 0
  wf := wf

/-- Where update element `(r, j)` lands: at `(r, j)`. -/
def rowsEmb {N n C : Nat} (h : n ≤ N) (jj : (⟨2, ![n, C]⟩ : Shape).Idx) : (⟨2, ![N, C]⟩ : Shape).Idx :=
  ix2 ⟨(jj 0).val, by have := idx2_lt0 jj; omega⟩ (jj 1)

theorem rowsEmb_injective {N n C : Nat} (h : n ≤ N) : Function.Injective (rowsEmb (C := C) h) := by
  intro a b hab
  have h0 := congrArg (fun i => (i 0).val) hab
  have h1 := congrArg (fun i => (i 1).val) hab
  exact Shape.idx_ext₂ h0 h1

section
variable {N n C w : Nat} (wf : ScatterDims.WF ⟨2, ![N, C]⟩ ⟨1, ![1]⟩ ⟨2, ![n, C]⟩ [0, 1] [] [0] 0)
  (idx : IVec ⟨1, ![1]⟩ w) (jj : (⟨2, ![n, C]⟩ : Shape).Idx)

theorem rowsDims_start0 (h0 : (idx (ix1 ⟨0, Nat.one_pos⟩)).toInt = 0) : (rowsDims N n C wf).start jj idx 0 = 0 := by
  unfold ScatterDims.start
  rw [dif_pos (show (0 : Fin 2) ∈ (rowsDims N n C wf).scatterDimsToOperandDims from List.mem_singleton.mpr rfl)]
  have hsi : (rowsDims N n C wf).siIdx jj ⟨List.idxOf (0 : Fin 2) (rowsDims N n C wf).scatterDimsToOperandDims,
      List.idxOf_lt_length_iff.2 (List.mem_singleton.mpr rfl)⟩ = ix1 ⟨0, Nat.one_pos⟩ := by
    funext b; refine Fin.ext ?_
    match b with
    | ⟨0, _⟩ => rfl
  rw [hsi, h0]

theorem rowsDims_start1 : (rowsDims N n C wf).start jj idx 1 = 0 := by
  unfold ScatterDims.start
  have h1 : ¬ (1 : Fin 2) ∈ (rowsDims N n C wf).scatterDimsToOperandDims := by
    show ¬ (1 : Fin 2) ∈ ([0] : List (Fin 2)); decide
  rw [dif_neg h1]

theorem rowsDims_window0 : (rowsDims N n C wf).window jj 0 = (jj 0).val := by
  unfold ScatterDims.window
  rw [dif_pos (show (0 : Fin 2) ∈ (rowsDims N n C wf).sKept by simp [ScatterDims.sKept, Shape.kept])]
  rfl

theorem rowsDims_window1 : (rowsDims N n C wf).window jj 1 = (jj 1).val := by
  unfold ScatterDims.window
  rw [dif_pos (show (1 : Fin 2) ∈ (rowsDims N n C wf).sKept by simp [ScatterDims.sKept, Shape.kept])]
  rfl

/-- Every update element lands, at its own coordinates. -/
theorem rowsDims_resultIdx (h : n ≤ N) (h0 : (idx (ix1 ⟨0, Nat.one_pos⟩)).toInt = 0) :
    (rowsDims N n C wf).resultIdx? jj idx = some (rowsEmb h jj) := by
  have hj0 := idx2_lt0 jj
  have hj1 := idx2_lt1 jj
  have e0 : (rowsDims N n C wf).start jj idx 0 + ((rowsDims N n C wf).window jj 0 : ℤ) = ((jj 0).val : ℤ) := by
    rw [rowsDims_start0 wf idx jj h0, rowsDims_window0 wf jj]; simp
  have e1 : (rowsDims N n C wf).start jj idx 1 + ((rowsDims N n C wf).window jj 1 : ℤ) = ((jj 1).val : ℤ) := by
    rw [rowsDims_start1 wf idx jj, rowsDims_window1 wf jj]; simp
  have hcond : ∀ a : Fin 2, 0 ≤ (rowsDims N n C wf).start jj idx a + ((rowsDims N n C wf).window jj a : ℤ)
      ∧ (rowsDims N n C wf).start jj idx a + ((rowsDims N n C wf).window jj a : ℤ) < ((⟨2, ![N, C]⟩ : Shape).size a : ℤ) := by
    refine Fin.forall_fin_two.2 ⟨?_, ?_⟩
    · rw [e0]; show (0 : ℤ) ≤ _ ∧ _ < ((N : ℕ) : ℤ); omega
    · rw [e1]; show (0 : ℤ) ≤ _ ∧ _ < ((C : ℕ) : ℤ); omega
  unfold ScatterDims.resultIdx?
  rw [dif_pos hcond]
  refine congrArg some (Shape.idx_ext₂ ?_ ?_)
  · show ((rowsDims N n C wf).start jj idx 0 + ((rowsDims N n C wf).window jj 0 : ℤ)).toNat = (jj 0).val
    rw [e0]; simp
  · show ((rowsDims N n C wf).start jj idx 1 + ((rowsDims N n C wf).window jj 1 : ℤ)).toNat = (jj 1).val
    rw [e1]; simp

end

/-- THE ROWS WRITTEN, READ AT `(r, j)` WITH `r < n`: the update's entry. -/
theorem scatter_rows_apply {α : Type} {N n C w : Nat}
    (wf : ScatterDims.WF ⟨2, ![N, C]⟩ ⟨1, ![1]⟩ ⟨2, ![n, C]⟩ [0, 1] [] [0] 0) (h : n ≤ N)
    (x : (⟨2, ![N, C]⟩ : Shape).Idx → α) (idx : IVec ⟨1, ![1]⟩ w) (h0 : (idx (ix1 ⟨0, Nat.one_pos⟩)).toInt = 0)
    (upd : (⟨2, ![n, C]⟩ : Shape).Idx → α) (r : Fin N) (j : Fin C) (hr : r.val < n) :
    Host.scatter (rowsDims N n C wf) (fun _ b => b) x idx upd (ix2 r j) = upd (ix2 ⟨r.val, hr⟩ j) := by
  have e : ix2 r j = rowsEmb h (ix2 (⟨r.val, hr⟩ : Fin n) j) := Shape.idx_ext₂ rfl rfl
  rw [e]
  exact scatter_set_of_embed (rowsDims N n C wf) idx (rowsEmb h) (rowsEmb_injective h)
    (fun jj => rowsDims_resultIdx wf idx jj h h0) x upd _

/-- Below the written rows the operand's entry stays. -/
theorem scatter_rows_apply_below {α : Type} {N n C w : Nat}
    (wf : ScatterDims.WF ⟨2, ![N, C]⟩ ⟨1, ![1]⟩ ⟨2, ![n, C]⟩ [0, 1] [] [0] 0) (h : n ≤ N)
    (x : (⟨2, ![N, C]⟩ : Shape).Idx → α) (idx : IVec ⟨1, ![1]⟩ w) (h0 : (idx (ix1 ⟨0, Nat.one_pos⟩)).toInt = 0)
    (upd : (⟨2, ![n, C]⟩ : Shape).Idx → α) (r : Fin N) (j : Fin C) (hr : n ≤ r.val) :
    Host.scatter (rowsDims N n C wf) (fun _ b => b) x idx upd (ix2 r j) = x (ix2 r j) := by
  refine scatter_set_of_embed_miss (rowsDims N n C wf) idx (rowsEmb h)
    (fun jj => rowsDims_resultIdx wf idx jj h h0) x upd _ (fun jj hjj => ?_)
  have h0' := congrArg (fun i => (i 0).val) hjj
  have := idx2_lt0 jj
  have h0'' : (jj 0).val = r.val := h0'
  omega

end Cert.LibScatterRows

end
-- ==== Proof.KernelIndex.lean ====
/-
  The kernel's result is `posEnc`.

  The reshape after the region reads the flat result at row `4096 b + s`; there the flat `x` is `x[b, s, ·]`, the centre
  columns are the centre words at `(b, s)`, and a padded table's row, for a word at most 99, is the table's own row: the
  rows written into the zeros are the first 100, and the word never reaches the zero rows.
-/
import proofs.«145960_j3418793967837_1_alg».proof.Proof.KernelValue
import proofs.«145960_j3418793967837_1_alg».proof.Proof.LibScatterRows

noncomputable section

namespace Cert.KernelIdeal.PosEnc

open Cert.KernelIdeal Cert.KernelIdeal.Gen Idealize.ShloMosaic Idealize.ShloMosaic.TcCoe Idealize.SL.Sem
open Idealize.ShloMosaic.ValueIdx Cert.PosEnc

variable (m : (ℓ : Loc nD τ sig) → Buf (Elt Ideal) ℓ)

/-- The three float arguments the result reads, each at its literal type. -/
abbrev xIn (c : Dev nD) : FVec Ideal S8x4096x1024 .f32 := m ((c : Thread nD τ).loc main_arg0)
abbrev peH (c : Dev nD) : FVec Ideal S100x512 .f32 := m ((c : Thread nD τ).loc main_arg2)
abbrev peW (c : Dev nD) : FVec Ideal S100x512 .f32 := m ((c : Thread nD τ).loc main_arg3)

/-- The printed scatter record is the one that writes a block of rows at row 0. -/
theorem scatter_eq_rowsDims : scatter_S128x512_S1_S100x512_01_n_0_0
    = Cert.LibScatterRows.rowsDims 128 100 512 scatter_S128x512_S1_S100x512_01_n_0_0_wf := rfl

/-- A padded table at a row below 100: the table's own row. -/
theorem padded_apply (tbl : FVec Ideal S100x512 .f32) (r : Fin 128) (j : Fin 512) (hr : r.val < 100) :
    Host.scatter scatter_S128x512_S1_S100x512_01_n_0_0 (fun _ b => b)
        (broadcastInDim S128x512 ![] bcast_S_S128x512 (constant (F := Ideal) S_ .f32 0x00000000#32))
        (broadcastInDim S1 ![] bcast_S_S1 (constantI S_ 32 0#32)) tbl (ix2 r j)
      = tbl (ix2 ⟨r.val, hr⟩ j) := by
  rw [scatter_eq_rowsDims]
  exact Cert.LibScatterRows.scatter_rows_apply _ (by decide) _ _
    (by show (0#32 : BitVec 32).toInt = 0; decide) tbl r j hr

/-- The flat row of `(b, s)`. -/
abbrev flatRow (b : Fin 8) (s : Fin 4096) : Fin 32768 :=
  ⟨b.val * 4096 + s.val, by have := b.isLt; have := s.isLt; omega⟩

theorem xArr_apply (c : Dev nD) (b : Fin 8) (s : Fin 4096) (j : Fin 1024) :
    xArr m c (ix2 (flatRow b s) j) = xIn m c (ix3 b s j) := by
  rw [xArr_eq]
  exact shapeCast_apply (s := S8x4096x1024) (t := S32768x1024) (xIn m c) shapeCasts_S8x4096x1024_S32768x1024
    (ix2 (flatRow b s) j) (ix3 b s j) (by
      show (S8x4096x1024.rowMajor (ix3 b s j)).val = (S32768x1024.rowMajor (ix2 (flatRow b s) j)).val
      rewrite [Shape.rowMajor_val_three, Shape.rowMajor_val_two]; rfl)

theorem cyArr_apply (c : Dev nD) (b : Fin 8) (s : Fin 4096) :
    cyArr m c (ix2 (flatRow b s) 0) = cyWords m c (ix2 b s) := by
  rw [cyArr_eq]
  exact shapeCast_apply _ _ _ _ (by
    rewrite [Shape.rowMajor_val_two, Shape.rowMajor_val_two]
    show b.val * 4096 + s.val = (b.val * 4096 + s.val) * 1 + 0
    omega)

theorem cxArr_apply (c : Dev nD) (b : Fin 8) (s : Fin 4096) :
    cxArr m c (ix2 (flatRow b s) 0) = cxWords m c (ix2 b s) := by
  rw [cxArr_eq]
  exact shapeCast_apply _ _ _ _ (by
    rewrite [Shape.rowMajor_val_two, Shape.rowMajor_val_two]
    show b.val * 4096 + s.val = (b.val * 4096 + s.val) * 1 + 0
    omega)

/-- A padded table read at the row a centre word names. -/
theorem padded_row (tbl : FVec Ideal S100x512 .f32) (w : BitVec 32) (h0 : 0 ≤ w.toInt) (h1 : w.toInt ≤ 99) (j : Fin 512) :
    Host.scatter scatter_S128x512_S1_S100x512_01_n_0_0 (fun _ b => b)
        (broadcastInDim S128x512 ![] bcast_S_S128x512 (constant (F := Ideal) S_ .f32 0x00000000#32))
        (broadcastInDim S1 ![] bcast_S_S1 (constantI S_ 32 0#32)) tbl (ix2 (rowOf w) j)
      = tbl (ix2 (row100 w) j) := by
  obtain ⟨-, hle⟩ := toNat_of_range w h0 h1
  have hr : (rowOf w).val < 100 := by show w.toNat % 128 < 100; omega
  rw [padded_apply tbl (rowOf w) j hr]
  refine congrArg (fun r => tbl (ix2 r j)) (Fin.ext ?_)
  show w.toNat % 128 = w.toNat % 100
  omega

/-- THE KERNEL'S RESULT is `posEnc` of `x`, its centre words and the tables. -/
theorem result_eq_posEnc (c : Dev nD) :
    shapeCast S8x4096x1024 (flatResult m c) shapeCasts_S32768x1024_S8x4096x1024
      = posEnc (m ((c : Thread nD τ).loc main_arg0)) (cyWords m c) (cxWords m c)
          (m ((c : Thread nD τ).loc main_arg2)) (m ((c : Thread nD τ).loc main_arg3)) := by
  funext i
  obtain ⟨b, s, j, rfl⟩ : ∃ (b : Fin 8) (s : Fin 4096) (j : Fin 1024), i = ix3 b s j := ⟨i 0, i 1, i 2, eq_ix3 i⟩
  rw [shapeCast_apply (flatResult m c) shapeCasts_S32768x1024_S8x4096x1024 (ix3 b s j) (ix2 (flatRow b s) j)
    (by rewrite [Shape.rowMajor_val_three, Shape.rowMajor_val_two]; rfl)]
  have hcy := centre_range' (boxes m c) ![0, 0, 1] ![0, 0, 3] slices_S8x4096x4_S8x4096x1_0_0_1
    slices_S8x4096x4_S8x4096x1_0_0_3 shapeCasts_S8x4096x1_S8x4096 bcast_S_S8x4096 (ix2 b s)
  have hcx := centre_range' (boxes m c) ![0, 0, 0] ![0, 0, 2] slices_S8x4096x4_S8x4096x1_0_0_0
    slices_S8x4096x4_S8x4096x1_0_0_2 shapeCasts_S8x4096x1_S8x4096 bcast_S_S8x4096 (ix2 b s)
  unfold flatResult posEncFlat posEnc
  show xArr m c (ix2 (flatRow b s) j)
      + (if h : j.val < 512 then thArr m c (ix2 (rowOf (cyArr m c (ix2 (flatRow b s) 0))) ⟨j.val, h⟩)
         else twArr m c (ix2 (rowOf (cxArr m c (ix2 (flatRow b s) 0))) ⟨j.val - 512, _⟩))
    = xIn m c (ix3 b s j)
      + (if h : j.val < 512 then peH m c (ix2 (row100 (cyWords m c (ix2 b s))) ⟨j.val, h⟩)
         else peW m c (ix2 (row100 (cxWords m c (ix2 b s))) ⟨j.val - 512, _⟩))
  rw [xArr_apply, cyArr_apply, cxArr_apply, thArr_eq, twArr_eq]
  refine congrArg (xIn m c (ix3 b s j) + ·) ?_
  by_cases h : j.val < 512
  · rw [dif_pos h, dif_pos h]
    exact padded_row _ _ hcy.1 hcy.2 _
  · rw [dif_neg h, dif_neg h]
    exact padded_row _ _ hcx.1 hcx.2 _

end Cert.KernelIdeal.PosEnc

end
-- ==== Proof.GatherRow.lean ====
/-
  A row gather read at an index.

  `table[idx]` for a table of `N` rows of `C` entries and an integer array `idx` of shape `[A, B]` lowers to a gather
  whose start indices are `idx` viewed `[A, B, 1]`, whose slices are single rows (`[1, C]`), the row axis collapsed and
  the column axis kept as the result's last axis.  Result entry `(a, b, j)` is the table's entry in column `j` of the row
  named by the start index `idx[a, b, 0]`, read as a signed integer and clamped into `[0, N - 1]`.
-/
import Idealize.ShloMosaic.PureOps.ShapeOps
import Idealize.ShloMosaic.Lib.ValueIdx
import Idealize.ShloMosaic.Lib.Pipeline.Value

noncomputable section

namespace Cert.PosEnc

open Idealize.ShloMosaic Idealize.ShloMosaic.ValueIdx

variable {α : Type}

/-- The dimension numbers of that gather over a table `[N, C]`, start indices `[A, B, 1]` and result `[A, B, C]`. -/
abbrev rowDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- On the table's row axis the operand index is the clamped start index. -/
theorem rowDims_operandIdx_row {N C A B w : Nat}
    (wf : GatherDims.WF ⟨2, ![N, C]⟩ ⟨3, ![A, B, 1]⟩ ⟨3, ![A, B, C]⟩ [2] [0] [] [0] [] 2 ![1, C])
    (idx : IVec ⟨3, ![A, B, 1]⟩ w) (a : Fin A) (b : Fin B) (j : Fin C) :
    ((rowDims N C A B wf).operandIdx (ix3 a b j) idx 0).val
      = min (idx (ix3 a b ⟨0, Nat.one_pos⟩)).toInt.toNat (N - 1) := by
  show (rowDims N C A B wf).start (ix3 a b j) idx 0 + (rowDims N C A B wf).batchCoord (ix3 a b j) 0
      + (rowDims N C A B wf).offCoord (ix3 a b j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C A B wf).startIndexMap from List.mem_singleton.mpr rfl)]
  have hsi : (rowDims N C A B wf).siIdx (ix3 a b j) ⟨List.idxOf (0 : Fin 2) (rowDims N C A B wf).startIndexMap,
      List.idxOf_lt_length_iff.2 (List.mem_singleton.mpr rfl)⟩ = ix3 a b ⟨0, Nat.one_pos⟩ := by
    funext c; refine Fin.ext ?_
    match c with
    | ⟨0, _⟩ => rfl
    | ⟨1, _⟩ => rfl
    | ⟨2, _⟩ => rfl
  rw [hsi]
  rfl

/-- On the table's column axis the operand index is the result's last coordinate. -/
theorem rowDims_operandIdx_col {N C A B w : Nat}
    (wf : GatherDims.WF ⟨2, ![N, C]⟩ ⟨3, ![A, B, 1]⟩ ⟨3, ![A, B, C]⟩ [2] [0] [] [0] [] 2 ![1, C])
    (idx : IVec ⟨3, ![A, B, 1]⟩ w) (a : Fin A) (b : Fin B) (j : Fin C) :
    ((rowDims N C A B wf).operandIdx (ix3 a b j) idx 1).val = j.val := by
  show (rowDims N C A B wf).start (ix3 a b j) idx 1 + (rowDims N C A B wf).batchCoord (ix3 a b j) 1
      + (rowDims N C A B wf).offCoord (ix3 a b j) 1 = _
  rw [GatherDims.batchCoord_eq_zero _ _ _ List.not_mem_nil]
  have hs : (rowDims N C A B wf).start (ix3 a b j) idx 1 = 0 := by
    unfold GatherDims.start
    have h1 : ¬ (1 : Fin 2) ∈ (rowDims N C A B wf).startIndexMap := by
      show ¬ (1 : Fin 2) ∈ ([0] : List (Fin 2)); decide
    rw [dif_neg h1]
  rw [hs]
  have hk : (1 : Fin 2) ∈ (rowDims N C A B wf).sKept :=
    (GatherDims.mem_sKept _ _).mpr ⟨by show ¬ (1 : Fin 2) ∈ ([0] : List (Fin 2)); decide, List.not_mem_nil⟩
  unfold GatherDims.offCoord
  rw [dif_pos hk]
  simp only [Nat.zero_add, Nat.add_zero]
  rfl

/-- THE ROW GATHER READ AT `(a, b, j)`. -/
theorem gather_row_apply {N C A B w : Nat}
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C)
    (r : Fin N) (hr : r.val = min (idx (ix3 a b ⟨0, Nat.one_pos⟩)).toInt.toNat (N - 1)) :
    Host.gather (rowDims N C A B wf) x idx (ix3 a b j) = x (ix2 r j) := by
  unfold Host.gather
  refine congrArg x (Shape.idx_ext₂ ?_ ?_)
  · exact (rowDims_operandIdx_row wf idx a b j).trans hr.symm
  · exact rowDims_operandIdx_col wf idx a b j

end Cert.PosEnc

end
-- ==== Proof.RefValue.lean ====
/-
  The reference's result is `posEnc`.

  The reference adds to `x` the concatenation, along the last axis, of two row gathers: the first table at the `y` centre
  words, the second at the `x` centre words, each after jnp's index normalisation (a negative index has 100 added).  The
  centre words are in `[0, 99]`, so the normalisation and the gather's clamp leave them, and entry `(b, s, j)` of a gather
  is the table's row `centre[b, s]`, column `j`.
-/
import proofs.«145960_j3418793967837_1_alg».proof.Proof.RefRun
import proofs.«145960_j3418793967837_1_alg».proof.Proof.GatherRow
import proofs.«145960_j3418793967837_1_alg».proof.Proof.OneHot
import proofs.«145960_j3418793967837_1_alg».proof.Proof.Centre
import proofs.«145960_j3418793967837_1_alg».proof.Proof.CentreRange
import Idealize.ShloMosaic.Lib.Pipeline.Value

set_option maxRecDepth 8192

noncomputable section

namespace Cert.ReferenceIdeal.PosEnc

open Cert.ReferenceIdeal Cert.ReferenceIdeal.Gen Idealize.ShloMosaic Idealize.ShloMosaic.TcCoe Idealize.SL.Sem
open Idealize.ShloMosaic.ValueIdx Cert.PosEnc

variable (m : (ℓ : Loc nD τ sig) → Buf (Elt Ideal) ℓ)

/-- The boxes as launched. -/
abbrev boxes (c : Dev nD) : FVec Ideal S8x4096x4 .f32 := m ((c.tc : Thread nD τ).loc main_arg1)
/-- The `y` centre words (box coordinates 1 and 3). -/
abbrev cyWords (c : Dev nD) : IVec S8x4096 32 :=
  centreWords (boxes m c) ![0, 0, 1] ![0, 0, 3] slices_S8x4096x4_S8x4096x1_0_0_1 slices_S8x4096x4_S8x4096x1_0_0_3
    shapeCasts_S8x4096x1_S8x4096 bcast_S_S8x4096
/-- The `x` centre words (box coordinates 0 and 2). -/
abbrev cxWords (c : Dev nD) : IVec S8x4096 32 :=
  centreWords (boxes m c) ![0, 0, 0] ![0, 0, 2] slices_S8x4096x4_S8x4096x1_0_0_0 slices_S8x4096x4_S8x4096x1_0_0_2
    shapeCasts_S8x4096x1_S8x4096 bcast_S_S8x4096

/-- The three float arguments the result reads, each at its literal type. -/
abbrev xIn (c : Dev nD) : FVec Ideal S8x4096x1024 .f32 := m ((c.tc : Thread nD τ).loc main_arg0)
abbrev peH (c : Dev nD) : FVec Ideal S100x512 .f32 := m ((c.tc : Thread nD τ).loc main_arg2)
abbrev peW (c : Dev nD) : FVec Ideal S100x512 .f32 := m ((c.tc : Thread nD τ).loc main_arg3)

/-- jnp's normalised start indices for an array of words: 100 added to the negative ones, viewed `[8, 4096, 1]`. -/
def startIdx (W : IVec S8x4096 32) : IVec S8x4096x1 32 :=
  broadcastInDim S8x4096x1 ![0, 1] bcast_S8x4096_S8x4096x1_0_1
    (select (cmpi .slt W (broadcastInDim S8x4096 ![] bcast_S_S8x4096 (constantI S_ 32 0#32)))
      (addi W (broadcastInDim S8x4096 ![] bcast_S_S8x4096 (constantI S_ 32 100#32))) W)

/-- The reference's result term, with the centre words and the start indices named. -/
theorem res_eq (c : Dev nD) :
    (ValueP.res_main_v37 m c : FVec Ideal S8x4096x1024 .f32) = addf (xIn m c)
      (concatenate S8x4096x1024 2
        [⟨S8x4096x512, Host.gather gather_S100x512_S8x4096x1_S8x4096x512_2_0_n_n_0_2_1512
            (peH m c) (startIdx (cyWords m c))⟩,
         ⟨S8x4096x512, Host.gather gather_S100x512_S8x4096x1_S8x4096x512_2_0_n_n_0_2_1512
            (peW m c) (startIdx (cxWords m c))⟩]
        concatenates_S8x4096x512_S8x4096x512_S8x4096x1024_d2) := by
  unfold ValueP.res_main_v37
  rfl

/-- A start index at `(b, s, 0)`: the word at `(b, s)`, normalised. -/
theorem startIdx_apply (W : IVec S8x4096 32) (b : Fin 8) (s : Fin 4096) :
    startIdx W (ix3 b s ⟨0, Nat.one_pos⟩)
      = Scalar.select (IntOp.cmpi .slt (W (ix2 b s)) 0#32) (IntOp.addi (W (ix2 b s)) 100#32) (W (ix2 b s)) := by
  unfold startIdx
  rw [broadcastInDim_apply _ _ _ (ix3 b s ⟨0, Nat.one_pos⟩) (ix2 b s) (fun a => by
    match a with
    | ⟨0, _⟩ => rfl
    | ⟨1, _⟩ => rfl)]
  rfl

/-- The printed gather record is the row gather's. -/
theorem gather_eq_rowDims : gather_S100x512_S8x4096x1_S8x4096x512_2_0_n_n_0_2_1512
    = rowDims 100 512 8 4096 gather_S100x512_S8x4096x1_S8x4096x512_2_0_n_n_0_2_1512_wf := rfl

/-- One gather at an index, for words in `[0, 99]`: the table's row the word names. -/
theorem gather_apply (tbl : FVec Ideal S100x512 .f32) (W : IVec S8x4096 32)
    (hW : ∀ i, 0 ≤ (W i).toInt ∧ (W i).toInt ≤ 99) (b : Fin 8) (s : Fin 4096) (j : Fin 512) :
    Host.gather gather_S100x512_S8x4096x1_S8x4096x512_2_0_n_n_0_2_1512 tbl (startIdx W) (ix3 b s j)
      = tbl (ix2 (row100 (W (ix2 b s))) j) := by
  obtain ⟨h0, h1⟩ := hW (ix2 b s)
  obtain ⟨e, hle⟩ := toNat_of_range _ h0 h1
  rw [gather_eq_rowDims]
  refine gather_row_apply _ tbl (startIdx W) b s j (row100 (W (ix2 b s))) ?_
  rw [startIdx_apply, start_row _ h0 h1, row100_of_le _ hle]
  show (W (ix2 b s)).toNat = _
  omega

/-- THE REFERENCE'S RESULT is `posEnc` of `x`, its centre words and the tables. -/
theorem res_eq_posEnc (c : Dev nD) :
    (ValueP.res_main_v37 m c : FVec Ideal S8x4096x1024 .f32) = posEnc (m ((c.tc : Thread nD τ).loc main_arg0)) (cyWords m c) (cxWords m c)
      (m ((c.tc : Thread nD τ).loc main_arg2)) (m ((c.tc : Thread nD τ).loc main_arg3)) := by
  rw [res_eq]
  funext i
  obtain ⟨b, s, j, rfl⟩ : ∃ (b : Fin 8) (s : Fin 4096) (j : Fin 1024), i = ix3 b s j := ⟨i 0, i 1, i 2, eq_ix3 i⟩
  show xIn m c (ix3 b s j) + concatenate S8x4096x1024 2
      [⟨S8x4096x512, Host.gather gather_S100x512_S8x4096x1_S8x4096x512_2_0_n_n_0_2_1512 (peH m c) (startIdx (cyWords m c))⟩,
       ⟨S8x4096x512, Host.gather gather_S100x512_S8x4096x1_S8x4096x512_2_0_n_n_0_2_1512 (peW m c) (startIdx (cxWords m c))⟩]
      concatenates_S8x4096x512_S8x4096x512_S8x4096x1024_d2 (ix3 b s j)
    = posEnc (xIn m c) (cyWords m c) (cxWords m c) (peH m c) (peW m c) (ix3 b s j)
  unfold posEnc
  refine congrArg (xIn m c (ix3 b s j) + ·) ?_
  have hcy := fun i => centre_range' (boxes m c) ![0, 0, 1] ![0, 0, 3] slices_S8x4096x4_S8x4096x1_0_0_1
    slices_S8x4096x4_S8x4096x1_0_0_3 shapeCasts_S8x4096x1_S8x4096 bcast_S_S8x4096 i
  have hcx := fun i => centre_range' (boxes m c) ![0, 0, 0] ![0, 0, 2] slices_S8x4096x4_S8x4096x1_0_0_0
    slices_S8x4096x4_S8x4096x1_0_0_2 shapeCasts_S8x4096x1_S8x4096 bcast_S_S8x4096 i
  by_cases h : j.val < 512
  · rw [dif_pos (show ((ix3 b s j : S8x4096x1024.Idx) 2).val < 512 from h)]
    refine (concatenate_pair_apply_left (t := S8x4096x1024) (s₁ := S8x4096x512) (s₂ := S8x4096x512) (2 : Fin 3) _ _ concatenates_S8x4096x512_S8x4096x512_S8x4096x1024_d2
      (ix3 b s j) rfl (ix3 b s (⟨j.val, h⟩ : Fin 512)) (fun a => by
        match a with
        | ⟨0, _⟩ => rfl
        | ⟨1, _⟩ => rfl
        | ⟨2, _⟩ => rfl)).trans ?_
    exact gather_apply _ (cyWords m c) hcy b s ⟨j.val, h⟩
  · rw [dif_neg (show ¬ ((ix3 b s j : S8x4096x1024.Idx) 2).val < 512 from h)]
    have h' : j.val - 512 < 512 := by have := j.isLt; omega
    refine (concatenate_pair_apply_right (t := S8x4096x1024) (s₁ := S8x4096x512) (s₂ := S8x4096x512) (2 : Fin 3) _ _ concatenates_S8x4096x512_S8x4096x512_S8x4096x1024_d2
      (ix3 b s j) rfl rfl (ix3 b s (⟨j.val - 512, h'⟩ : Fin 512)) (fun a ha => by
        match a with
        | ⟨0, _⟩ => rfl
        | ⟨1, _⟩ => rfl
        | ⟨2, _⟩ => exact absurd rfl ha) (by
        show (j.val - 512) + 512 = j.val
        omega)).trans ?_
    exact gather_apply _ (cxWords m c) hcx b s ⟨j.val - 512, h'⟩

/-- The same with the argument arrays named: whatever arrays `x`, `bx`, `ph`, `pw` the four arguments hold, the result is
    `posEnc` of `x`, the centre words of `bx` and the two tables.  (How the assembly meets another program's arguments:
    it passes the agreement of the two memories.) -/
theorem res_eq_posEnc_of (c : Dev nD) (x : FVec Ideal S8x4096x1024 .f32) (bx : FVec Ideal S8x4096x4 .f32)
    (ph pw : FVec Ideal S100x512 .f32)
    (hx : m ((c.tc : Thread nD τ).loc main_arg0) = x) (hb : m ((c.tc : Thread nD τ).loc main_arg1) = bx)
    (hh : m ((c.tc : Thread nD τ).loc main_arg2) = ph) (hw : m ((c.tc : Thread nD τ).loc main_arg3) = pw) :
    (ValueP.res_main_v37 m c : FVec Ideal S8x4096x1024 .f32) = posEnc x
      (centreWords bx ![0, 0, 1] ![0, 0, 3] slices_S8x4096x4_S8x4096x1_0_0_1 slices_S8x4096x4_S8x4096x1_0_0_3
        shapeCasts_S8x4096x1_S8x4096 bcast_S_S8x4096)
      (centreWords bx ![0, 0, 0] ![0, 0, 2] slices_S8x4096x4_S8x4096x1_0_0_0 slices_S8x4096x4_S8x4096x1_0_0_2
        shapeCasts_S8x4096x1_S8x4096 bcast_S_S8x4096) ph pw := by
  subst hx hb hh hw
  exact res_eq_posEnc m c

end Cert.ReferenceIdeal.PosEnc

end
-- ==== Proof.lean ====
/-
  Positional encoding of boxes, as a fused kernel and as jnp: the two compute one function.

  For `x : [8, 4096, 1024]`, boxes `[8, 4096, 4]` and two tables `pe_h, pe_w : [100, 512]`, the result at `(b, s, j)` is
  `x[b, s, j] + pe_h[cy[b, s], j]` for `j < 512` and `x[b, s, j] + pe_w[cx[b, s], j - 512]` for `j ≥ 512`, where
  `cy = clip(int((box₁ + box₃) · 0.5 · 99), 0, 99)` and `cx` likewise from `box₀ + box₂`.

  The reference gathers the table rows.  The kernel pads each table with 28 zero rows, and for each block of 512 rows
  multiplies the one-hot matrix `[cy[r] = k]` (`k` over 128 lanes) by the padded table on the matrix unit: on the extended
  reals `0 · t = 0` for every `t`, so the sum over `k` is the single term `k = cy[r]`, a row of the table itself because
  `cy[r] ≤ 99`.  The centre words are computed by the same operations on both sides; all that is used of them is that a
  clip to `[0, 99]` lands in `[0, 99]`.  No finiteness of the inputs is needed, and the precondition is never opened.

  The three frames are the generated ones (the reference's is its generated run with the result dropped); the kernel's
  idealization rewrote nothing, so `preserves` is `True`.
-/
import proofs.«145960_j3418793967837_1_alg».proof.Defs
import proofs.«145960_j3418793967837_1_alg».proof.Proof.Gen.Kernel
import proofs.«145960_j3418793967837_1_alg».proof.Proof.Gen.Kernel.Skeleton
import proofs.«145960_j3418793967837_1_alg».proof.Proof.Gen.Kernel.Launch
import proofs.«145960_j3418793967837_1_alg».proof.Proof.Gen.Kernel.Points
import proofs.«145960_j3418793967837_1_alg».proof.Proof.Gen.Kernel.Frame
import proofs.«145960_j3418793967837_1_alg».proof.Proof.Gen.KernelIdeal
import proofs.«145960_j3418793967837_1_alg».proof.Proof.Gen.KernelIdeal.Skeleton
import proofs.«145960_j3418793967837_1_alg».proof.Proof.Gen.KernelIdeal.Launch
import proofs.«145960_j3418793967837_1_alg».proof.Proof.Gen.KernelIdeal.Points
import proofs.«145960_j3418793967837_1_alg».proof.Proof.Gen.KernelIdeal.Frame
import proofs.«145960_j3418793967837_1_alg».proof.Proof.Gen.ReferenceIdeal
import proofs.«145960_j3418793967837_1_alg».proof.Proof.RefRun
import proofs.«145960_j3418793967837_1_alg».proof.Proof.Gen.Pre_finite_inputs
import proofs.«145960_j3418793967837_1_alg».proof.Proof.KernelIndex
import proofs.«145960_j3418793967837_1_alg».proof.Proof.RefValue
import Idealize.ShloMosaic.Adequacy
import Idealize.ShloMosaic.Init

noncomputable section

namespace Cert.Proof

open Idealize.ShloMosaic Idealize.ShloMosaic.TcCoe Idealize.SL.Sem Cert.PosEnc

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs, from memories that agree on the arguments, end with the result array at `posEnc` of the kernel's
    arguments: the kernel by its run and `result_eq_posEnc`, the reference by its run and `res_eq_posEnc_of` at the
    kernel's arguments, which its own are by the agreement. -/
theorem algebraic : Cert.algebraic_KernelIdeal_ReferenceIdeal := by
  intro m ρ m' ρ' _ hagree
  refine ⟨fun c => posEnc (m ((c.tc : Thread Cert.KernelIdeal.nD Cert.KernelIdeal.τ).loc Cert.KernelIdeal.main_arg0))
      (Cert.KernelIdeal.PosEnc.cyWords m c) (Cert.KernelIdeal.PosEnc.cxWords m c)
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.PosEnc.result_eq_posEnc m c), (h c).2⟩)
      (Cert.KernelIdeal.PosEnc.run m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3⟩ := hagree c
    exact Cert.ReferenceIdeal.PosEnc.res_eq_posEnc_of m' c _ _ _ _ e0 e1 e2 e3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
